-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : IVec S11008x4096 32) (main_arg2 : FVec F S11008 .f32) (main_arg3 : FVec F S11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S11008x4096 : Shape := ⟨2, ![11008, 4096]⟩
abbrev S11008 : Shape := ⟨1, ![11008]⟩
abbrev S4096x11008 : Shape := ⟨2, ![4096, 11008]⟩
abbrev S2048x256 : Shape := ⟨2, ![2048, 256]⟩
abbrev S1024x256 : Shape := ⟨2, ![1024, 256]⟩
abbrev S1024 : Shape := ⟨1, ![1024]⟩
abbrev S2048x1024 : Shape := ⟨2, ![2048, 1024]⟩
abbrev S1024x1 : Shape := ⟨2, ![1024, 1]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S4096x11008, .f32⟩
  | .local _ .vmem, ⟨0, _⟩ => ⟨S2048x256, .f32⟩
  | .local _ .vmem, ⟨1, _⟩ => ⟨S2048x256, .f32⟩
  | .local _ .vmem, ⟨2, _⟩ => ⟨S1024x256, .i32⟩
  | .local _ .vmem, ⟨3, _⟩ => ⟨S1024x256, .i32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 11, 16], ![false, false, false]⟩

def k0_cond2 (i : grid0.Coords) : BitVec 1 :=
  let arg2 : BitVec 32 := BitVec.ofNat 32 (i 2).val
  let c15_i32 : BitVec 32 := 15#32
  let v22 : BitVec 1 := Scalar.cmpi .eq arg2 c15_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x256 : S1024x1.Broadcasts S1024x256
  shapeCasts_S1024_S1x1024 : S1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x256.size a < S11008x4096.size a
  hwx0_1 : ∀ i : grid0.Coords, EltTy.bits .i32 = 32 ∨ (Rect.unit (s := S11008x4096) (fun a => cc0_transform_1 i a * S1024x256.size a) (fun a => (Pipeline.Clip.of (cc0_transform_1 i a) (S1024x256.size a) (S11008x4096.size a)).extent (S1024x256.size a)) fun a => Pipeline.Clip.inb (Pipeline.Clip.ok_of (hstart0_1 i a))).WholeWords (EltTy.packing .i32)
  hwxs0_1 : ∀ i : grid0.Coords, EltTy.bits .i32 = 32 ∨ (Rect.unit (s := S1024x256) (fun _ => 0) (fun a => (Pipeline.Clip.of (cc0_transform_1 i a) (S1024x256.size a) (S11008x4096.size a)).extent (S1024x256.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024.size a < S11008.size a
  hwx0_2 : ∀ i : grid0.Coords, EltTy.bits .f32 = 32 ∨ (Rect.unit (s := S11008) (fun a => cc0_transform_2 i a * S1024.size a) (fun a => (Pipeline.Clip.of (cc0_transform_2 i a) (S1024.size a) (S11008.size a)).extent (S1024.size a)) fun a => Pipeline.Clip.inb (Pipeline.Clip.ok_of (hstart0_2 i a))).WholeWords (EltTy.packing .f32)
  hwxs0_2 : ∀ i : grid0.Coords, EltTy.bits .f32 = 32 ∨ (Rect.unit (s := S1024) (fun _ => 0) (fun a => (Pipeline.Clip.of (cc0_transform_2 i a) (S1024.size a) (S11008.size a)).extent (S1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024.size a < S11008.size a
  hwx0_3 : ∀ i : grid0.Coords, EltTy.bits .f32 = 32 ∨ (Rect.unit (s := S11008) (fun a => cc0_transform_3 i a * S1024.size a) (fun a => (Pipeline.Clip.of (cc0_transform_3 i a) (S1024.size a) (S11008.size a)).extent (S1024.size a)) fun a => Pipeline.Clip.inb (Pipeline.Clip.ok_of (hstart0_3 i a))).WholeWords (EltTy.packing .f32)
  hwxs0_3 : ∀ i : grid0.Coords, EltTy.bits .f32 = 32 ∨ (Rect.unit (s := S1024) (fun _ => 0) (fun a => (Pipeline.Clip.of (cc0_transform_3 i a) (S1024.size a) (S11008.size a)).extent (S1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024.size a < S11008.size a
  hwx0_4 : ∀ i : grid0.Coords, EltTy.bits .f32 = 32 ∨ (Rect.unit (s := S11008) (fun a => cc0_transform_4 i a * S1024.size a) (fun a => (Pipeline.Clip.of (cc0_transform_4 i a) (S1024.size a) (S11008.size a)).extent (S1024.size a)) fun a => Pipeline.Clip.inb (Pipeline.Clip.ok_of (hstart0_4 i a))).WholeWords (EltTy.packing .f32)
  hwxs0_4 : ∀ i : grid0.Coords, EltTy.bits .f32 = 32 ∨ (Rect.unit (s := S1024) (fun _ => 0) (fun a => (Pipeline.Clip.of (cc0_transform_4 i a) (S1024.size a) (S11008.size a)).extent (S1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048x1024.size a < S4096x11008.size a
  hwx0_5 : ∀ i : grid0.Coords, EltTy.bits .f32 = 32 ∨ (Rect.unit (s := S4096x11008) (fun a => cc0_transform_5 i a * S2048x1024.size a) (fun a => (Pipeline.Clip.of (cc0_transform_5 i a) (S2048x1024.size a) (S4096x11008.size a)).extent (S2048x1024.size a)) fun a => Pipeline.Clip.inb (Pipeline.Clip.ok_of (hstart0_5 i a))).WholeWords (EltTy.packing .f32)
  hwxs0_5 : ∀ i : grid0.Coords, EltTy.bits .f32 = 32 ∨ (Rect.unit (s := S2048x1024) (fun _ => 0) (fun a => (Pipeline.Clip.of (cc0_transform_5 i a) (S2048x1024.size a) (S4096x11008.size a)).extent (S2048x1024.size a)) fun a => (Nat.zero_add _).trans_le (Pipeline.Clip.extent_le (Pipeline.Clip.ok_of (hstart0_5 i a)))).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg4) S1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0) S2048x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S11008x4096 : Shape := ⟨2, ![11008, 4096]⟩
abbrev S11008 : Shape := ⟨1, ![11008]⟩
abbrev S11008x1 : Shape := ⟨2, ![11008, 1]⟩
abbrev S4096x11008 : Shape := ⟨2, ![4096, 11008]⟩
abbrev S1x11008 : Shape := ⟨2, ![1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S4096x11008, .f32⟩
  | .hbm, ⟨13, _⟩ => ⟨S1x11008, .f32⟩
  | .hbm, ⟨14, _⟩ => ⟨S4096x11008, .f32⟩
  | .hbm, ⟨15, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.BodyB.lean ====
/-
  The kernel body as a triple, for either float instance: one call of the kernel function on seven whole
  buffers — the five input blocks, the output block, the accumulator — in each of the three cases the grid meets.
  At the first reduction step the accumulator is zeroed before the block product is added; at a middle step the
  product is added to what the accumulator held; at the last step the bias row is added and the sum stored to
  the output block. The inputs are left as found, and the output block is untouched except at the last step.
-/
import proofs.«115302_j58660663329081_1_alg».proof.Proof.Gen.Kernel.Frame
import proofs.«115302_j58660663329081_1_alg».proof.Proof.Gen.Kernel.Skeleton
import Idealize.ShloMosaic.Lib.Tactic
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The first reduction step: grid coordinate 2 is zero (the body's first branch, as the kernel computes it). -/
abbrev condFirst (i : grid0.Coords) : Prop :=
  (Scalar.cmpi .ne (Scalar.extui (Scalar.cmpi .eq (BitVec.ofNat 32 (i 2).val) 0#32)) 0#32) = 1#1
/-- The last reduction step: grid coordinate 2 is fifteen (the body's second branch). -/
abbrev condLast (i : grid0.Coords) : Prop := k0_cond2 i = 1#1

/-- What the accumulator holds after a step that found `s` in it: `s` plus the block product. -/
abbrev accStep (x0 : Vec F S2048x256 .f32) (x1 : Vec F S1024x256 .i32) (x2 x3 : Vec F S1024 .f32) (s : Vec F S2048x1024 .f32) :
    Vec F S2048x1024 .f32 := k0_pay2 x0 x1 x3 x2 s

/-- The zero offsets of a rank-two rectangle, however spelt. -/
private theorem hz2 : (![0, 0] : Fin 2 → Nat) = fun _ => 0 := funext fun a => by fin_cases a <;> rfl
/-- The zero offset of a rank-one rectangle. -/
private theorem hz1 : (![0] : Fin 1 → Nat) = fun _ => 0 := funext fun a => by fin_cases a; rfl

/-- A load of the whole buffer, through a whole memref held at the raw contents of `X`, reads `X`. -/
private theorem readAt_unit_unread {sp : Space} {S : Shape} {e : EltTy} (a : Memref sig .tc sp S e) (h : a.IsWhole)
    {off : Fin S.rank → Nat} (hz : off = fun _ => 0) (inb : ∀ k, off k + S.size k ≤ S.size k) (X : S.Idx → Elt F e) :
    a.view.readAt (Elt F) (Rect.unit off S.size inb).toLoadRect (h.unread X) = X := by
  rw [View.readAt_eq_ld, h.read_unread, View.ld_unit_zero hz]

/-- After a store of the whole buffer made last, the buffer reads the stored payload, whatever it held and
    whatever was stored before. -/
private theorem read_writes_unit {sp : Space} {S : Shape} {e : EltTy} (v : View sig .tc sp S e) (f : v.ty.Contents (Elt F))
    {off : Fin S.rank → Nat} (hz : off = fun _ => 0) (inb : ∀ k, off k + S.size k ≤ S.size k) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons.mpr (Or.inl rfl), View.mem_set_unit_zero hz inb y⟩),
    View.canon_cons_unit_zero hz inb w L]

section
variable (c : Dev nD) (i : grid0.Coords)
  (a3 : Memref sig .tc .vmem S2048x256 .f32) (h3 : a3.IsWhole) (a4 : Memref sig .tc .vmem S1024x256 .i32) (h4 : a4.IsWhole)
  (a5 : Memref sig .tc .vmem S1024 .f32) (h5 : a5.IsWhole) (a6 : Memref sig .tc .vmem S1024 .f32) (h6 : a6.IsWhole)
  (a7 : Memref sig .tc .vmem S1024 .f32) (h7 : a7.IsWhole) (a8 : Memref sig .tc .vmem S2048x1024 .f32) (h8 : a8.IsWhole)
  (a9 : Memref sig .tc .vmem S2048x1024 .f32) (h9 : a9.IsWhole)
  (x0 : Vec F S2048x256 .f32) (x1 : Vec F S1024x256 .i32) (x2 x3 x4 : Vec F S1024 .f32) (x5 s : Vec F S2048x1024 .f32)

/-- First step: the accumulator ends at the block product over zeros; everything else as found. -/
theorem body_first (hf : condFirst i) (hl : ¬condLast i) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare s
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare (accStep x0 x1 x2 x3 (k0_pay1 (F := F)))) -∗ K ⟨⟩))
      ⊢ wp frame (wpE (defs₀ (F := F)) Variants.none c none) E (cc0__qlinear_kernel i a3 h3 a4 h4 a5 h5 a6 h6 a7 h7 a8 h8 a9 h9) K := by
  simp only [cc0__qlinear_kernel_eq_skeleton]; unfold cc0__qlinear_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9
  sl_exec (disch := first | exact hf | exact hl)
  sl_step
  iapply Hk
  -- every input block, and the output block, is handed back holding what it held
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the accumulator reads the payload stored last; the load after the zeroing store reads the zeros
  iexists _; isplitr; swap
  · iexact H9
  ipureintro
  sl_unfold_run_names
  rw [read_writes_unit _ _ hz2, readAt_unit_unread a3 h3 hz2, readAt_unit_unread a4 h4 hz2, readAt_unit_unread a6 h6 hz1,
    readAt_unit_unread a5 h5 hz1, View.readCov_unit_zero _ hz2]

/-- A middle step: the accumulator gains the block product; everything else as found. -/
theorem body_mid (hf : ¬condFirst i) (hl : ¬condLast i) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare s
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare (accStep x0 x1 x2 x3 s)) -∗ K ⟨⟩))
      ⊢ wp frame (wpE (defs₀ (F := F)) Variants.none c none) E (cc0__qlinear_kernel i a3 h3 a4 h4 a5 h5 a6 h6 a7 h7 a8 h8 a9 h9) K := by
  simp only [cc0__qlinear_kernel_eq_skeleton]; unfold cc0__qlinear_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9
  sl_exec (disch := first | exact hf | exact hl)
  sl_step
  iapply Hk
  -- every input block, and the output block, is handed back holding what it held
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the accumulator reads the payload stored last, and each whole-buffer load reads what its buffer held
  iexists _; isplitr; swap
  · iexact H9
  ipureintro
  rw [read_writes_unit _ _ hz2, readAt_unit_unread a3 h3 hz2, readAt_unit_unread a4 h4 hz2, readAt_unit_unread a6 h6 hz1,
    readAt_unit_unread a5 h5 hz1, readAt_unit_unread a9 h9 hz2]

/-- The last step: the accumulator gains the block product, and the output block is set to it plus the bias row. -/
theorem body_last (hf : ¬condFirst i) (hl : condLast i) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare s
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ owns (c : Thread nD τ) a8 fullShare (k0_pay3 (accStep x0 x1 x2 x3 s) x4)
            ∗ owns (c : Thread nD τ) a9 fullShare (accStep x0 x1 x2 x3 s)) -∗ K ⟨⟩))
      ⊢ wp frame (wpE (defs₀ (F := F)) Variants.none c none) E (cc0__qlinear_kernel i a3 h3 a4 h4 a5 h5 a6 h6 a7 h7 a8 h8 a9 h9) K := by
  simp only [cc0__qlinear_kernel_eq_skeleton]; unfold cc0__qlinear_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9
  sl_exec (disch := first | exact hf | exact hl)
  sl_step
  iapply Hk
  -- every input block is handed back holding what it held
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  -- the output block reads the payload stored to it: the accumulator as just updated, with the last input's row added to every row
  isplitl [H8]
  · iexists _; isplitr; swap
    · iexact H8
    ipureintro
    sl_unfold_run_names
    rw [read_writes_unit _ _ hz2, View.readCov_unit_zero _ hz2, readAt_unit_unread a3 h3 hz2, readAt_unit_unread a4 h4 hz2,
      readAt_unit_unread a6 h6 hz1, readAt_unit_unread a5 h5 hz1, readAt_unit_unread a9 h9 hz2, readAt_unit_unread a7 h7 hz1]
  -- the accumulator reads the payload stored last, and each whole-buffer load reads what its buffer held
  iexists _; isplitr; swap
  · iexact H9
  ipureintro
  sl_unfold_run_names
  rw [read_writes_unit _ _ hz2, readAt_unit_unread a3 h3 hz2, readAt_unit_unread a4 h4 hz2, readAt_unit_unread a6 h6 hz1,
    readAt_unit_unread a5 h5 hz1, readAt_unit_unread a9 h9 hz2]

end

end Cert.Kernel.Hand

end
-- ==== Proof.FrameB.lean ====
/-
  The word-level kernel's frame.  Nothing is said of what the body leaves in any staging buffer or in the
  accumulator: at the word level a matrix product is not read entry by entry, and the buffers' words past the
  arrays' ends are unknown, so the proof data only record that the body runs from any contents to some
  contents.  That is all the frame asks: the run terminates without a fault, and the five argument arrays, which
  the pipeline only reads, end as they began.
-/
import proofs.«115302_j58660663329081_1_alg».proof.Proof.Gen.Kernel.Frame
import proofs.«115302_j58660663329081_1_alg».proof.Proof.Gen.Kernel.Skeleton
import proofs.«115302_j58660663329081_1_alg».proof.Proof.BodyB
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core c: the arrays as launched, every buffer's relation empty, the class's own invariant. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- No point of the grid is both a first and a last reduction step: the third coordinate is not 0 and 15 at once. -/
private theorem not_first_last : ∀ t : Fin cfg0.N, ¬(condFirst (grid0.coords t) ∧ condLast (grid0.coords t)) :=
  (by decide +kernel : ∀ t : Fin grid0.N, ¬(condFirst (grid0.coords t) ∧ condLast (grid0.coords t)))

/-- From any contents of the seven buffers the body runs, and leaves them at some contents. -/
theorem body_obligationR (c : Dev nD) : (rdat m c).BodyObligation (defs₀ (F := F)) Variants.none () Set.univ := by
  intro t Y _
  rw [bigSep_W0, bigSep_W0]
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [scopedRest0_eq]
  simp only [← owns_whole]
  -- whichever reduction step the point is, the body runs from these contents; it leaves the five input blocks as
  -- found, and the output block and the accumulator at some contents
  have run : ∀ f : Buf (Elt F) ((c : Thread nD τ).loc cc0_scratch0), ∃ X5 S : Vec F S2048x1024 .f32, ∀ K : PUnit → sProp 𝕄,
      iprop(owns (c : Thread nD τ) (st0_0 t) fullShare (Y 0) ∗ owns (c : Thread nD τ) (st0_1 t) fullShare (Y 1)
          ∗ owns (c : Thread nD τ) (st0_2 t) fullShare (Y 2) ∗ owns (c : Thread nD τ) (st0_3 t) fullShare (Y 3)
          ∗ owns (c : Thread nD τ) (st0_4 t) fullShare (Y 4) ∗ owns (c : Thread nD τ) (st0_5 t) fullShare (Y 5)
          ∗ owns (c : Thread nD τ) (Memref.whole cc0_scratch0) fullShare f
          ∗ (iprop(owns (c : Thread nD τ) (st0_0 t) fullShare (Y 0) ∗ owns (c : Thread nD τ) (st0_1 t) fullShare (Y 1)
          ∗ owns (c : Thread nD τ) (st0_2 t) fullShare (Y 2) ∗ owns (c : Thread nD τ) (st0_3 t) fullShare (Y 3)
          ∗ owns (c : Thread nD τ) (st0_4 t) fullShare (Y 4) ∗ owns (c : Thread nD τ) (st0_5 t) fullShare X5
          ∗ owns (c : Thread nD τ) (Memref.whole cc0_scratch0) fullShare S) -∗ K ⟨⟩))
        ⊢ wp frame (wpE (defs₀ (F := F)) Variants.none c none) Set.univ (bodyAt0 t) K := by
    intro f
    by_cases hl : condLast (grid0.coords t)
    · by_cases hf : condFirst (grid0.coords t)
      · exact absurd ⟨hf, hl⟩ (not_first_last t)
      · exact ⟨_, _, fun K => body_last (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (Memref.whole cc0_scratch0) (Memref.isWhole_whole _)
        (Y 0) (Y 1) (Y 2) (Y 3) (Y 4) (Y 5) f hf hl Set.univ K⟩
    · by_cases hf : condFirst (grid0.coords t)
      · exact ⟨_, _, fun K => body_first (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (Memref.whole cc0_scratch0) (Memref.isWhole_whole _)
        (Y 0) (Y 1) (Y 2) (Y 3) (Y 4) (Y 5) f hf hl Set.univ K⟩
      · exact ⟨_, _, fun K => body_mid (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (Memref.whole cc0_scratch0) (Memref.isWhole_whole _)
        (Y 0) (Y 1) (Y 2) (Y 3) (Y 4) (Y 5) f hf hl Set.univ K⟩
  iintro ⟨⟨⟨%f, Hs⟩, Hr⟩, Ho, H0, H1, H2, H3, H4, H5⟩
  obtain ⟨X5, S, run⟩ := run f
  iapply (run _)
  -- each buffer goes to the body as it was found
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  -- the accumulator, at whatever it now holds, goes back into the invariant beside the generator register
  isplitl [Hs Hr]
  · isplitl [Hs]
    · iexists S; iexact Hs
    · iexact Hr
  isplitl [Ho]; · iexact Ho
  -- every window's buffer is handed back at some contents; nothing is asked of them
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  · iexists X5; isplitr; · ipureintro; trivial
    iexact H5

theorem run_mainR : θ_run defs (onTc (τ := τ) (main (F := F))) (s₀ m ρ) (Pipeline.RDat.FramePost cfg0 (rdat m) (V m)) :=
  Pipeline.RDat.θ_run_frame cfgs 0 launch0 defs₀ Variants.none (rdat m) m ρ main
    (body_obligationR m) (fun c w => by unfold Pipeline.RDat.share; split <;> rfl) (fun _ _ => rfl)
    (V m) (hmain m Variants.none) (fun _ _ => rfl) (fun _ _ => rfl)

/-- The frame: the arguments are inputs of the pipeline, so they end at their entry contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.arr_in c 0 rfl).trans (V_main_arg0 m c), (h.arr_in c 1 rfl).trans (V_main_arg1 m c),
      (h.arr_in c 2 rfl).trans (V_main_arg2 m c), (h.arr_in c 3 rfl).trans (V_main_arg3 m c),
      (h.arr_in c 4 rfl).trans (V_main_arg4 m c)⟩) (run_mainR m ρ)

end Cert.Kernel.Hand

end
-- ==== Proof.BodyI.lean ====
/-
  The kernel body as a triple, for either float instance: one call of the kernel function on seven whole
  buffers — the five input blocks, the output block, the accumulator — in each of the three cases the grid meets.
  At the first reduction step the accumulator is zeroed before the block product is added; at a middle step the
  product is added to what the accumulator held; at the last step the bias row is added and the sum stored to
  the output block. The inputs are left as found, and the output block is untouched except at the last step.
-/
import proofs.«115302_j58660663329081_1_alg».proof.Proof.Gen.KernelIdeal.Frame
import proofs.«115302_j58660663329081_1_alg».proof.Proof.Gen.KernelIdeal.Skeleton
import Idealize.ShloMosaic.Lib.Tactic
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The first reduction step: grid coordinate 2 is zero (the body's first branch, as the kernel computes it). -/
abbrev condFirst (i : grid0.Coords) : Prop :=
  (Scalar.cmpi .ne (Scalar.extui (Scalar.cmpi .eq (BitVec.ofNat 32 (i 2).val) 0#32)) 0#32) = 1#1
/-- The last reduction step: grid coordinate 2 is fifteen (the body's second branch). -/
abbrev condLast (i : grid0.Coords) : Prop := k0_cond2 i = 1#1

/-- What the accumulator holds after a step that found `s` in it: `s` plus the block product. -/
abbrev accStep (x0 : Vec F S2048x256 .f32) (x1 : Vec F S1024x256 .i32) (x2 x3 : Vec F S1024 .f32) (s : Vec F S2048x1024 .f32) :
    Vec F S2048x1024 .f32 := k0_pay2 x0 x1 x3 x2 s

/-- The zero offsets of a rank-two rectangle, however spelt. -/
private theorem hz2 : (![0, 0] : Fin 2 → Nat) = fun _ => 0 := funext fun a => by fin_cases a <;> rfl
/-- The zero offset of a rank-one rectangle. -/
private theorem hz1 : (![0] : Fin 1 → Nat) = fun _ => 0 := funext fun a => by fin_cases a; rfl

/-- A load of the whole buffer, through a whole memref held at the raw contents of `X`, reads `X`. -/
private theorem readAt_unit_unread {sp : Space} {S : Shape} {e : EltTy} (a : Memref sig .tc sp S e) (h : a.IsWhole)
    {off : Fin S.rank → Nat} (hz : off = fun _ => 0) (inb : ∀ k, off k + S.size k ≤ S.size k) (X : S.Idx → Elt F e) :
    a.view.readAt (Elt F) (Rect.unit off S.size inb).toLoadRect (h.unread X) = X := by
  rw [View.readAt_eq_ld, h.read_unread, View.ld_unit_zero hz]

/-- After a store of the whole buffer made last, the buffer reads the stored payload, whatever it held and
    whatever was stored before. -/
private theorem read_writes_unit {sp : Space} {S : Shape} {e : EltTy} (v : View sig .tc sp S e) (f : v.ty.Contents (Elt F))
    {off : Fin S.rank → Nat} (hz : off = fun _ => 0) (inb : ∀ k, off k + S.size k ≤ S.size k) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons.mpr (Or.inl rfl), View.mem_set_unit_zero hz inb y⟩),
    View.canon_cons_unit_zero hz inb w L]

section
variable (c : Dev nD) (i : grid0.Coords)
  (a3 : Memref sig .tc .vmem S2048x256 .f32) (h3 : a3.IsWhole) (a4 : Memref sig .tc .vmem S1024x256 .i32) (h4 : a4.IsWhole)
  (a5 : Memref sig .tc .vmem S1024 .f32) (h5 : a5.IsWhole) (a6 : Memref sig .tc .vmem S1024 .f32) (h6 : a6.IsWhole)
  (a7 : Memref sig .tc .vmem S1024 .f32) (h7 : a7.IsWhole) (a8 : Memref sig .tc .vmem S2048x1024 .f32) (h8 : a8.IsWhole)
  (a9 : Memref sig .tc .vmem S2048x1024 .f32) (h9 : a9.IsWhole)
  (x0 : Vec F S2048x256 .f32) (x1 : Vec F S1024x256 .i32) (x2 x3 x4 : Vec F S1024 .f32) (x5 s : Vec F S2048x1024 .f32)

/-- First step: the accumulator ends at the block product over zeros; everything else as found. -/
theorem body_first (hf : condFirst i) (hl : ¬condLast i) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare s
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare (accStep x0 x1 x2 x3 (k0_pay1 (F := F)))) -∗ K ⟨⟩))
      ⊢ wp frame (wpE (defs₀ (F := F)) Variants.none c none) E (cc0__qlinear_kernel i a3 h3 a4 h4 a5 h5 a6 h6 a7 h7 a8 h8 a9 h9) K := by
  simp only [cc0__qlinear_kernel_eq_skeleton]; unfold cc0__qlinear_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9
  sl_exec (disch := first | exact hf | exact hl)
  sl_step
  iapply Hk
  -- every input block, and the output block, is handed back holding what it held
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the accumulator reads the payload stored last; the load after the zeroing store reads the zeros
  iexists _; isplitr; swap
  · iexact H9
  ipureintro
  sl_unfold_run_names
  rw [read_writes_unit _ _ hz2, readAt_unit_unread a3 h3 hz2, readAt_unit_unread a4 h4 hz2, readAt_unit_unread a6 h6 hz1,
    readAt_unit_unread a5 h5 hz1, View.readCov_unit_zero _ hz2]

/-- A middle step: the accumulator gains the block product; everything else as found. -/
theorem body_mid (hf : ¬condFirst i) (hl : ¬condLast i) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare s
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare (accStep x0 x1 x2 x3 s)) -∗ K ⟨⟩))
      ⊢ wp frame (wpE (defs₀ (F := F)) Variants.none c none) E (cc0__qlinear_kernel i a3 h3 a4 h4 a5 h5 a6 h6 a7 h7 a8 h8 a9 h9) K := by
  simp only [cc0__qlinear_kernel_eq_skeleton]; unfold cc0__qlinear_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9
  sl_exec (disch := first | exact hf | exact hl)
  sl_step
  iapply Hk
  -- every input block, and the output block, is handed back holding what it held
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  -- the accumulator reads the payload stored last, and each whole-buffer load reads what its buffer held
  iexists _; isplitr; swap
  · iexact H9
  ipureintro
  rw [read_writes_unit _ _ hz2, readAt_unit_unread a3 h3 hz2, readAt_unit_unread a4 h4 hz2, readAt_unit_unread a6 h6 hz1,
    readAt_unit_unread a5 h5 hz1, readAt_unit_unread a9 h9 hz2]

/-- The last step: the accumulator gains the block product, and the output block is set to it plus the bias row. -/
theorem body_last (hf : ¬condFirst i) (hl : condLast i) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare s
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ owns (c : Thread nD τ) a8 fullShare (k0_pay3 (accStep x0 x1 x2 x3 s) x4)
            ∗ owns (c : Thread nD τ) a9 fullShare (accStep x0 x1 x2 x3 s)) -∗ K ⟨⟩))
      ⊢ wp frame (wpE (defs₀ (F := F)) Variants.none c none) E (cc0__qlinear_kernel i a3 h3 a4 h4 a5 h5 a6 h6 a7 h7 a8 h8 a9 h9) K := by
  simp only [cc0__qlinear_kernel_eq_skeleton]; unfold cc0__qlinear_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9
  sl_exec (disch := first | exact hf | exact hl)
  sl_step
  iapply Hk
  -- every input block is handed back holding what it held
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  -- the output block reads the payload stored to it: the accumulator as just updated, with the last input's row added to every row
  isplitl [H8]
  · iexists _; isplitr; swap
    · iexact H8
    ipureintro
    sl_unfold_run_names
    rw [read_writes_unit _ _ hz2, View.readCov_unit_zero _ hz2, readAt_unit_unread a3 h3 hz2, readAt_unit_unread a4 h4 hz2,
      readAt_unit_unread a6 h6 hz1, readAt_unit_unread a5 h5 hz1, readAt_unit_unread a9 h9 hz2, readAt_unit_unread a7 h7 hz1]
  -- the accumulator reads the payload stored last, and each whole-buffer load reads what its buffer held
  iexists _; isplitr; swap
  · iexact H9
  ipureintro
  sl_unfold_run_names
  rw [read_writes_unit _ _ hz2, readAt_unit_unread a3 h3 hz2, readAt_unit_unread a4 h4 hz2, readAt_unit_unread a6 h6 hz1,
    readAt_unit_unread a5 h5 hz1, readAt_unit_unread a9 h9 hz2]

end

end Cert.KernelIdeal.Hand

end
-- ==== Proof.PayI.lean ====
/-
  The body's three stored values at the ideal instance, read at an index.  With extended reals for floats and
  every format change the identity: the zero fill is 0 everywhere; the accumulator update at row p, column q is
  the previous entry plus the sum over the 256 contraction positions of x(p,·) times the dequantized weight
  (w(q,·) − zero(q)) · scale(q); and the output is the accumulator plus the bias at the column.
-/
import proofs.«115302_j58660663329081_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Cert.KernelIdeal Cert.KernelIdeal.Gen
open ValueIdx (ix1 ix2)

/-- The zero fill is zero at every entry. -/
theorem pay1_apply (j : S2048x1024.Idx) : k0_pay1 (F := Ideal) j = (0 : EReal) := by
  unfold k0_pay1
  rw [shapeCast_self]
  show Ideal.ofBits .f32 0x00000000#32 = 0
  exact Ideal.ofBits_zero_f32

section Column
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(r, c)`, the operand's one column at `r`. -/
private theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Column

/-- The left operand's row coordinate is the output's row. -/
private theorem lhs_pay2_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
/-- The left operand's column coordinate is the contraction position. -/
private theorem lhs_pay2_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
/-- The right operand's row coordinate is the output's column. -/
private theorem rhs_pay2_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
/-- The right operand's column coordinate is the contraction position. -/
private theorem rhs_pay2_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The accumulator update at an entry: the previous entry plus the block's inner product of the x row with the
    dequantized weight row. -/
theorem pay2_apply (x0 : Vec Ideal S2048x256 .f32) (x1 : Vec Ideal S1024x256 .i32) (z sc : Vec Ideal S1024 .f32)
    (a : Vec Ideal S2048x1024 .f32) (p : Fin 2048) (q : Fin 1024) :
    k0_pay2 (F := Ideal) x0 x1 z sc a (ix2 p q)
      = (a (ix2 p q) + ∑ k : Fin 256, x0 (ix2 p k) * ((FloatOps.sitofp (F := Ideal) .f32 (x1 (ix2 q k)) - z (ix1 q)) * sc (ix1 q)) : EReal) := by
  unfold k0_pay2
  rw [shapeCast_self]
  -- the sum at the entry is the previous entry plus the product's entry
  refine (ValueIdx.addf_apply _ _ _).trans (congrArg (fun t : EReal => a (ix2 p q) + t) ?_)
  -- into the zero accumulator the product's entry is the plain sum over the contraction positions
  simp only [matmul]
  refine (Ideal.matmul_constant_zero_apply dot_S2048x256_S1024x256_S2048x1024_1_1_0_0_n_n none _ _ (ix2 p q)).trans ?_
  rw [← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 p q) ((ValueIdx.contrEquiv1 dot_S2048x256_S1024x256_S2048x1024_1_1_0_0_n_n 256 rfl rfl).symm k) = ix2 p k := funext fun ax => Fin.ext (by
    match ax with
    | ⟨0, _⟩ => exact lhs_pay2_0 _ _
    | ⟨1, _⟩ => exact (lhs_pay2_1 _ _).trans hk)
  have er : dot_S2048x256_S1024x256_S2048x1024_1_1_0_0_n_n.rhsIdx (ix2 p q) ((ValueIdx.contrEquiv1 dot_S2048x256_S1024x256_S2048x1024_1_1_0_0_n_n 256 rfl rfl).symm k) = ix2 q k := funext fun ax => Fin.ext (by
    match ax with
    | ⟨0, _⟩ => exact rhs_pay2_0 _ _
    | ⟨1, _⟩ => exact (rhs_pay2_1 _ _).trans hk)
  rw [el, er]
  -- the format changes are the identity; the dequantized weight at (q, k) is (w(q,k) − zero(q)) · scale(q)
  rw [ValueIdx.truncf_apply, ValueIdx.truncf_apply, ValueIdx.mulf_apply, ValueIdx.subf_apply, ValueIdx.sitofp_apply,
    broadcastTo_a1_ab_apply, broadcastTo_a1_ab_apply, shapeCast_a_a1_apply, shapeCast_a_a1_apply]

/-- The output entry: the accumulator plus the bias at the column. -/
theorem pay3_apply (a : Vec Ideal S2048x1024 .f32) (b : Vec Ideal S1024 .f32) (p : Fin 2048) (q : Fin 1024) :
    k0_pay3 (F := Ideal) a b (ix2 p q) = (a (ix2 p q) + b (ix1 q) : EReal) := by
  unfold k0_pay3
  rw [ValueIdx.addf_apply, ValueIdx.broadcastTo_1b_ab_apply, ValueIdx.shapeCast_a_1a_apply]

end Cert.KernelIdeal.Hand

end
-- ==== Proof.BlocksI.lean ====
/-
  Where the pipeline's blocks sit in the arrays.  Point t of the grid has coordinates (i, j, k): i picks 2048
  rows of x and of the result, j picks 1024 output channels (the last such block runs 256 channels past the
  array's 11008 and is cut there), k picks 256 contraction positions.  Each input block read at an index that lies
  inside its array is the array's entry at the block's offset plus that index; the result's block at the point,
  cut at the array's end, reads a whole-array function at the same offsets; the blocks written back (one per
  (i, j), at k = 15) together cover the result.  The two branch conditions of the body are k = 0 and k = 15, and a
  point with k ≠ 0 follows the point with the same i, j and k − 1.
-/
import proofs.«115302_j58660663329081_1_alg».proof.Proof.Gen.KernelIdeal.Frame
import proofs.«115302_j58660663329081_1_alg».proof.Proof.Gen.KernelIdeal.Skeleton
import Idealize.ShloMosaic.Lib.Pipeline.Value
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

variable (m : (ℓ : Loc nD τ sig) → Buf (Elt F) ℓ)

/-- The three coordinates of a grid point. -/
abbrev ci (t : Fin cfg0.N) : ℕ := (grid0.coords t 0).val
abbrev cj (t : Fin cfg0.N) : ℕ := (grid0.coords t 1).val
abbrev ck (t : Fin cfg0.N) : ℕ := (grid0.coords t 2).val

/-- The coordinates in closed form: the points run row-major, k fastest. -/
private theorem coords_closed : ∀ t : Fin cfg0.N, (grid0.coords t 0).val = t.val / 176 ∧ (grid0.coords t 1).val = t.val / 16 % 11 ∧ (grid0.coords t 2).val = t.val % 16 :=
  (by decide +kernel : ∀ t : Fin grid0.N, (grid0.coords t 0).val = t.val / 176 ∧ (grid0.coords t 1).val = t.val / 16 % 11 ∧ (grid0.coords t 2).val = t.val % 16)

theorem ci_lt (t : Fin cfg0.N) : ci t < 2 := (grid0.coords t 0).isLt
theorem cj_lt (t : Fin cfg0.N) : cj t < 11 := (grid0.coords t 1).isLt
theorem ck_lt (t : Fin cfg0.N) : ck t < 16 := (grid0.coords t 2).isLt

/-- The two branch conditions as functions of k alone, decided over its sixteen values. -/
private theorem condFirst16 : ∀ k : Fin 16, (Scalar.cmpi .ne (Scalar.extui (Scalar.cmpi .eq (BitVec.ofNat 32 k.val) 0#32)) 0#32) = 1#1 ↔ k.val = 0 := by decide +kernel
private theorem condLast16 : ∀ k : Fin 16, (Scalar.cmpi .ne (Scalar.extui (Scalar.cmpi .eq (BitVec.ofNat 32 k.val) 15#32)) 0#32) = 1#1 ↔ k.val = 15 := by decide +kernel

/-- The body's first branch is taken exactly at k = 0, its second exactly at k = 15. -/
theorem condFirst_iff (t : Fin cfg0.N) : (Scalar.cmpi .ne (Scalar.extui (Scalar.cmpi .eq (BitVec.ofNat 32 (grid0.coords t 2).val) 0#32)) 0#32) = 1#1 ↔ ck t = 0 :=
  condFirst16 (grid0.coords t 2)
theorem condLast_iff (t : Fin cfg0.N) : k0_cond2 (grid0.coords t) = 1#1 ↔ ck t = 15 :=
  condLast16 (grid0.coords t 2)

/-- The result's block is written back exactly at the points with k = 15, and is idle exactly at the others. -/
theorem flush5_iff (t : Fin cfg0.N) : (cfg0.win 5).flush t = true ↔ k0_cond2 (grid0.coords t) = 1#1 := by
  rw [Gen.flush0_5 t, condLast_iff t]
  show t.val % 16 = 15 ↔ (grid0.coords t 2).val = 15
  rw [(coords_closed t).2.2]
theorem idle5_of_last (t : Fin cfg0.N) (h : k0_cond2 (grid0.coords t) = 1#1) : cfg0.idle 5 (grid0.coords t) = false := by
  show (!(k0_cond2 (grid0.coords t) == 1#1)) = false
  rw [h]; rfl
theorem idle5_of_not_last (t : Fin cfg0.N) (h : ¬(k0_cond2 (grid0.coords t) = 1#1)) : cfg0.idle 5 (grid0.coords t) = true := by
  show (!(k0_cond2 (grid0.coords t) == 1#1)) = true
  rw [beq_eq_false_iff_ne.mpr h]; rfl

/-- A point with k ≠ 0 is not the first, and the point before it has the same i and j and k − 1. -/
theorem coords_prev (t : Fin cfg0.N) (h : ck t ≠ 0) :
    ∃ hlt : t.val - 1 < cfg0.N, t.val ≠ 0 ∧ ci ⟨t.val - 1, hlt⟩ = ci t ∧ cj ⟨t.val - 1, hlt⟩ = cj t ∧ ck ⟨t.val - 1, hlt⟩ + 1 = ck t := by
  have hN : t.val < 352 := Gen.N_0 ▸ t.isLt
  have hlt : t.val - 1 < cfg0.N := by show t.val - 1 < grid0.N; rw [Gen.N_0]; omega
  obtain ⟨a0, a1, a2⟩ := coords_closed t
  obtain ⟨b0, b1, b2⟩ := coords_closed ⟨t.val - 1, hlt⟩
  have h' : (grid0.coords t 2).val ≠ 0 := h
  refine ⟨hlt, ?_, ?_, ?_, ?_⟩
  · omega
  · show (grid0.coords ⟨t.val - 1, hlt⟩ 0).val = (grid0.coords t 0).val
    rw [b0, a0]; show (t.val - 1) / 176 = t.val / 176; omega
  · show (grid0.coords ⟨t.val - 1, hlt⟩ 1).val = (grid0.coords t 1).val
    rw [b1, a1]; show (t.val - 1) / 16 % 11 = t.val / 16 % 11; omega
  · show (grid0.coords ⟨t.val - 1, hlt⟩ 2).val + 1 = (grid0.coords t 2).val
    rw [b2, a2]; show (t.val - 1) % 16 + 1 = t.val % 16; omega

/-! ## The block indices and the cut sizes, point by point -/

/-- Each window's block index at a point is the pair (or the one) of grid coordinates its index map returns. -/
private theorem idx0 : ∀ t : Fin cfg0.N, win0_0.index t 0 = (grid0.coords t 0).val ∧ win0_0.index t 1 = (grid0.coords t 2).val :=
  (by decide +kernel : ∀ t : Fin grid0.N, win0_0.index t 0 = (grid0.coords t 0).val ∧ win0_0.index t 1 = (grid0.coords t 2).val)
private theorem idx1 : ∀ t : Fin cfg0.N, win0_1.index t 0 = (grid0.coords t 1).val ∧ win0_1.index t 1 = (grid0.coords t 2).val :=
  (by decide +kernel : ∀ t : Fin grid0.N, win0_1.index t 0 = (grid0.coords t 1).val ∧ win0_1.index t 1 = (grid0.coords t 2).val)
private theorem idx2 : ∀ t : Fin cfg0.N, win0_2.index t 0 = (grid0.coords t 1).val :=
  (by decide +kernel : ∀ t : Fin grid0.N, win0_2.index t 0 = (grid0.coords t 1).val)
private theorem idx3 : ∀ t : Fin cfg0.N, win0_3.index t 0 = (grid0.coords t 1).val :=
  (by decide +kernel : ∀ t : Fin grid0.N, win0_3.index t 0 = (grid0.coords t 1).val)
private theorem idx4 : ∀ t : Fin cfg0.N, win0_4.index t 0 = (grid0.coords t 1).val :=
  (by decide +kernel : ∀ t : Fin grid0.N, win0_4.index t 0 = (grid0.coords t 1).val)
private theorem idx5 : ∀ t : Fin cfg0.N, win0_5.index t 0 = (grid0.coords t 0).val ∧ win0_5.index t 1 = (grid0.coords t 1).val :=
  (by decide +kernel : ∀ t : Fin grid0.N, win0_5.index t 0 = (grid0.coords t 0).val ∧ win0_5.index t 1 = (grid0.coords t 1).val)

/-- What each transfer moves: the full block on every axis but the channel axis, where block j keeps
    min 1024 (11008 − 1024·j) channels (768 for j = 10, all 1024 before). -/
private theorem xs1 : ∀ t : Fin cfg0.N, win0_1.xsize (grid0.coords t) 0 = min 1024 (11008 - 1024 * (grid0.coords t 1).val) ∧ win0_1.xsize (grid0.coords t) 1 = 256 :=
  (by decide +kernel : ∀ t : Fin grid0.N, win0_1.xsize (grid0.coords t) 0 = min 1024 (11008 - 1024 * (grid0.coords t 1).val) ∧ win0_1.xsize (grid0.coords t) 1 = 256)
private theorem xs2 : ∀ t : Fin cfg0.N, win0_2.xsize (grid0.coords t) 0 = min 1024 (11008 - 1024 * (grid0.coords t 1).val) :=
  (by decide +kernel : ∀ t : Fin grid0.N, win0_2.xsize (grid0.coords t) 0 = min 1024 (11008 - 1024 * (grid0.coords t 1).val))
private theorem xs3 : ∀ t : Fin cfg0.N, win0_3.xsize (grid0.coords t) 0 = min 1024 (11008 - 1024 * (grid0.coords t 1).val) :=
  (by decide +kernel : ∀ t : Fin grid0.N, win0_3.xsize (grid0.coords t) 0 = min 1024 (11008 - 1024 * (grid0.coords t 1).val))
private theorem xs4 : ∀ t : Fin cfg0.N, win0_4.xsize (grid0.coords t) 0 = min 1024 (11008 - 1024 * (grid0.coords t 1).val) :=
  (by decide +kernel : ∀ t : Fin grid0.N, win0_4.xsize (grid0.coords t) 0 = min 1024 (11008 - 1024 * (grid0.coords t 1).val))
private theorem xs5 : ∀ t : Fin cfg0.N, win0_5.xsize (grid0.coords t) 0 = 2048 ∧ win0_5.xsize (grid0.coords t) 1 = min 1024 (11008 - 1024 * (grid0.coords t 1).val) :=
  (by decide +kernel : ∀ t : Fin grid0.N, win0_5.xsize (grid0.coords t) 0 = 2048 ∧ win0_5.xsize (grid0.coords t) 1 = min 1024 (11008 - 1024 * (grid0.coords t 1).val))

/-- An index of a cut block whose channel 1024·j + row lies inside the array is among those the transfer moves. -/
private theorem moved1 (t : Fin cfg0.N) (y : S1024x256.Idx) (h : 1024 * cj t + (y 0).val < 11008) :
    win0_1.moved (grid0.coords t) y = true := by
  obtain ⟨x0, x1⟩ := xs1 t
  have h' : 1024 * (grid0.coords t 1).val + (y 0).val < 11008 := h
  have hy0 : (y 0).val < 1024 := (y 0).isLt
  have hy1 : (y 1).val < 256 := (y 1).isLt
  rw [Window.moved_iff]
  intro a
  match a with
  | ⟨0, _⟩ => show (y 0).val < win0_1.xsize (grid0.coords t) 0; rw [x0]; omega
  | ⟨1, _⟩ => show (y 1).val < win0_1.xsize (grid0.coords t) 1; rw [x1]; exact hy1
private theorem moved2 (t : Fin cfg0.N) (y : S1024.Idx) (h : 1024 * cj t + (y 0).val < 11008) :
    win0_2.moved (grid0.coords t) y = true := by
  have x0 := xs2 t
  have h' : 1024 * (grid0.coords t 1).val + (y 0).val < 11008 := h
  have hy0 : (y 0).val < 1024 := (y 0).isLt
  rw [Window.moved_iff]
  intro a
  match a with
  | ⟨0, _⟩ => show (y 0).val < win0_2.xsize (grid0.coords t) 0; rw [x0]; omega
private theorem moved3 (t : Fin cfg0.N) (y : S1024.Idx) (h : 1024 * cj t + (y 0).val < 11008) :
    win0_3.moved (grid0.coords t) y = true := by
  have x0 := xs3 t
  have h' : 1024 * (grid0.coords t 1).val + (y 0).val < 11008 := h
  have hy0 : (y 0).val < 1024 := (y 0).isLt
  rw [Window.moved_iff]
  intro a
  match a with
  | ⟨0, _⟩ => show (y 0).val < win0_3.xsize (grid0.coords t) 0; rw [x0]; omega
private theorem moved4 (t : Fin cfg0.N) (y : S1024.Idx) (h : 1024 * cj t + (y 0).val < 11008) :
    win0_4.moved (grid0.coords t) y = true := by
  have x0 := xs4 t
  have h' : 1024 * (grid0.coords t 1).val + (y 0).val < 11008 := h
  have hy0 : (y 0).val < 1024 := (y 0).isLt
  rw [Window.moved_iff]
  intro a
  match a with
  | ⟨0, _⟩ => show (y 0).val < win0_4.xsize (grid0.coords t) 0; rw [x0]; omega

/-! ## The input blocks at an index inside the array -/

/-- x's block (never cut): rows 2048·i …, positions 256·k …. -/
theorem iblk0_apply (c : Dev nD) (t : Fin cfg0.N) (y : S2048x256.Idx) (e : S4096x4096.Idx)
    (h0 : (e 0).val = 2048 * ci t + (y 0).val) (h1 : (e 1).val = 256 * ck t + (y 1).val) :
    iblk m c 0 t y = V m c main_arg0 e := by
  obtain ⟨i0, i1⟩ := idx0 t
  have h0' : (e 0).val = 2048 * (grid0.coords t 0).val + (y 0).val := h0
  have h1' : (e 1).val = 256 * (grid0.coords t 2).val + (y 1).val := h1
  show V m c main_arg0 (((cfg0.win 0).blk t).view.emb y) = V m c main_arg0 e
  refine congrArg (V m c main_arg0) (funext fun a => Fin.ext ?_)
  match a with
  | ⟨0, _⟩ => show win0_0.index t 0 * 2048 + 1 * (y 0).val = (e 0).val; rw [i0, h0']; omega
  | ⟨1, _⟩ => show win0_0.index t 1 * 256 + 1 * (y 1).val = (e 1).val; rw [i1, h1']; omega

/-- The weight's block filled into a buffer holding `d`: at an index whose channel 1024·j + row lies inside the
    array it is the array's entry. -/
theorem fill1_apply (c : Dev nD) (t : Fin cfg0.N) (d : S1024x256.Idx → Elt F .i32) (y : S1024x256.Idx) (e : S11008x4096.Idx)
    (h0 : (e 0).val = 1024 * cj t + (y 0).val) (h1 : (e 1).val = 256 * ck t + (y 1).val) :
    win0_1.fill (grid0.coords t) d (iblk m c 1 t) y = V m c main_arg1 e := by
  obtain ⟨i0, i1⟩ := idx1 t
  have h0' : (e 0).val = 1024 * (grid0.coords t 1).val + (y 0).val := h0
  have h1' : (e 1).val = 256 * (grid0.coords t 2).val + (y 1).val := h1
  have he : (e 0).val < 11008 := (e 0).isLt
  have hm : win0_1.moved (grid0.coords t) y = true :=
    moved1 t y (by show 1024 * (grid0.coords t 1).val + (y 0).val < 11008; omega)
  unfold Window.fill
  rw [dif_pos hm]
  show V m c main_arg1 (((cfg0.win 1).blk t).view.emb _) = V m c main_arg1 e
  refine congrArg (V m c main_arg1) (funext fun a => Fin.ext ?_)
  match a with
  | ⟨0, _⟩ => show win0_1.index t 0 * 1024 + 1 * (y 0).val = (e 0).val; rw [i0, h0']; omega
  | ⟨1, _⟩ => show win0_1.index t 1 * 256 + 1 * (y 1).val = (e 1).val; rw [i1, h1']; omega

/-- The three per-channel vectors (windows 2, 3, 4 stage main_arg2, main_arg3, main_arg4) likewise. -/
theorem fill2_apply (c : Dev nD) (t : Fin cfg0.N) (d : S1024.Idx → Elt F .f32) (y : S1024.Idx) (e : S11008.Idx)
    (h0 : (e 0).val = 1024 * cj t + (y 0).val) :
    win0_2.fill (grid0.coords t) d (iblk m c 2 t) y = V m c main_arg2 e := by
  have i0 := idx2 t
  have h0' : (e 0).val = 1024 * (grid0.coords t 1).val + (y 0).val := h0
  have he : (e 0).val < 11008 := (e 0).isLt
  have hm : win0_2.moved (grid0.coords t) y = true :=
    moved2 t y (by show 1024 * (grid0.coords t 1).val + (y 0).val < 11008; omega)
  unfold Window.fill
  rw [dif_pos hm]
  show V m c main_arg2 (((cfg0.win 2).blk t).view.emb _) = V m c main_arg2 e
  refine congrArg (V m c main_arg2) (funext fun a => Fin.ext ?_)
  match a with
  | ⟨0, _⟩ => show win0_2.index t 0 * 1024 + 1 * (y 0).val = (e 0).val; rw [i0, h0']; omega
theorem fill3_apply (c : Dev nD) (t : Fin cfg0.N) (d : S1024.Idx → Elt F .f32) (y : S1024.Idx) (e : S11008.Idx)
    (h0 : (e 0).val = 1024 * cj t + (y 0).val) :
    win0_3.fill (grid0.coords t) d (iblk m c 3 t) y = V m c main_arg3 e := by
  have i0 := idx3 t
  have h0' : (e 0).val = 1024 * (grid0.coords t 1).val + (y 0).val := h0
  have he : (e 0).val < 11008 := (e 0).isLt
  have hm : win0_3.moved (grid0.coords t) y = true :=
    moved3 t y (by show 1024 * (grid0.coords t 1).val + (y 0).val < 11008; omega)
  unfold Window.fill
  rw [dif_pos hm]
  show V m c main_arg3 (((cfg0.win 3).blk t).view.emb _) = V m c main_arg3 e
  refine congrArg (V m c main_arg3) (funext fun a => Fin.ext ?_)
  match a with
  | ⟨0, _⟩ => show win0_3.index t 0 * 1024 + 1 * (y 0).val = (e 0).val; rw [i0, h0']; omega
theorem fill4_apply (c : Dev nD) (t : Fin cfg0.N) (d : S1024.Idx → Elt F .f32) (y : S1024.Idx) (e : S11008.Idx)
    (h0 : (e 0).val = 1024 * cj t + (y 0).val) :
    win0_4.fill (grid0.coords t) d (iblk m c 4 t) y = V m c main_arg4 e := by
  have i0 := idx4 t
  have h0' : (e 0).val = 1024 * (grid0.coords t 1).val + (y 0).val := h0
  have he : (e 0).val < 11008 := (e 0).isLt
  have hm : win0_4.moved (grid0.coords t) y = true :=
    moved4 t y (by show 1024 * (grid0.coords t 1).val + (y 0).val < 11008; omega)
  unfold Window.fill
  rw [dif_pos hm]
  show V m c main_arg4 (((cfg0.win 4).blk t).view.emb _) = V m c main_arg4 e
  refine congrArg (V m c main_arg4) (funext fun a => Fin.ext ?_)
  match a with
  | ⟨0, _⟩ => show win0_4.index t 0 * 1024 + 1 * (y 0).val = (e 0).val; rw [i0, h0']; omega

/-! ## The cuts are functions of the block index -/

theorem clip_congr1 (t t' : Fin cfg0.N) (h : (cfg0.win 1).index t = (cfg0.win 1).index t') :
    (cfg0.win 1).clip (cfg0.grid.coords t) = (cfg0.win 1).clip (cfg0.grid.coords t') := by
  funext a
  have h' : cc0_transform_1 (grid0.coords t) = cc0_transform_1 (grid0.coords t') := h
  show Pipeline.Clip.of (cc0_transform_1 (grid0.coords t) a) _ _ = Pipeline.Clip.of (cc0_transform_1 (grid0.coords t') a) _ _
  rw [h']
theorem clip_congr2 (t t' : Fin cfg0.N) (h : (cfg0.win 2).index t = (cfg0.win 2).index t') :
    (cfg0.win 2).clip (cfg0.grid.coords t) = (cfg0.win 2).clip (cfg0.grid.coords t') := by
  funext a
  have h' : cc0_transform_2 (grid0.coords t) = cc0_transform_2 (grid0.coords t') := h
  show Pipeline.Clip.of (cc0_transform_2 (grid0.coords t) a) _ _ = Pipeline.Clip.of (cc0_transform_2 (grid0.coords t') a) _ _
  rw [h']
theorem clip_congr3 (t t' : Fin cfg0.N) (h : (cfg0.win 3).index t = (cfg0.win 3).index t') :
    (cfg0.win 3).clip (cfg0.grid.coords t) = (cfg0.win 3).clip (cfg0.grid.coords t') := by
  funext a
  have h' : cc0_transform_3 (grid0.coords t) = cc0_transform_3 (grid0.coords t') := h
  show Pipeline.Clip.of (cc0_transform_3 (grid0.coords t) a) _ _ = Pipeline.Clip.of (cc0_transform_3 (grid0.coords t') a) _ _
  rw [h']
theorem clip_congr4 (t t' : Fin cfg0.N) (h : (cfg0.win 4).index t = (cfg0.win 4).index t') :
    (cfg0.win 4).clip (cfg0.grid.coords t) = (cfg0.win 4).clip (cfg0.grid.coords t') := by
  funext a
  have h' : cc0_transform_4 (grid0.coords t) = cc0_transform_4 (grid0.coords t') := h
  show Pipeline.Clip.of (cc0_transform_4 (grid0.coords t) a) _ _ = Pipeline.Clip.of (cc0_transform_4 (grid0.coords t') a) _ _
  rw [h']

/-! ## The result's block -/

/-- An index of the part of the result's block that lies inside the array: its channel is below 11008. -/
theorem xinj5_inside (t : Fin cfg0.N) (y : (win0_5.xblock (grid0.coords t)).Idx) :
    1024 * cj t + (win0_5.xinj (grid0.coords t) y 1).val < 11008 := by
  obtain ⟨x0, x1⟩ := xs5 t
  have hy : (y 1).val < win0_5.xsize (grid0.coords t) 1 := (y 1).isLt
  rw [x1] at hy
  show 1024 * (grid0.coords t 1).val + (y 1).val < 11008
  omega

/-- The result's block at the point, cut at the array's end, reads a whole-array function at rows 2048·i … and
    channels 1024·j …. -/
theorem read5_apply (c : Dev nD) (t : Fin cfg0.N) (Gv : Vec F S4096x11008 .f32) (y : (win0_5.xblock (grid0.coords t)).Idx) (e : S4096x11008.Idx)
    (h0 : (e 0).val = 2048 * ci t + (win0_5.xinj (grid0.coords t) y 0).val)
    (h1 : (e 1).val = 1024 * cj t + (win0_5.xinj (grid0.coords t) y 1).val) :
    (win0_5.blk t).view.read (Elt F) Gv y = Gv e := by
  obtain ⟨i0, i1⟩ := idx5 t
  have h0' : (e 0).val = 2048 * (grid0.coords t 0).val + (y 0).val := h0
  have h1' : (e 1).val = 1024 * (grid0.coords t 1).val + (y 1).val := h1
  show Gv ((win0_5.blk t).view.emb y) = Gv e
  refine congrArg Gv (funext fun a => Fin.ext ?_)
  match a with
  | ⟨0, _⟩ => show win0_5.index t 0 * 2048 + 1 * (y 0).val = (e 0).val; rw [i0, h0']; omega
  | ⟨1, _⟩ => show win0_5.index t 1 * 1024 + 1 * (y 1).val = (e 1).val; rw [i1, h1']; omega

/-- An entry of the result is in the point's block iff its row is among the block's 2048 rows and its channel among
    the block's channels that lie inside the array. -/
private theorem mem_blk5 (t : Fin cfg0.N) (e : S4096x11008.Idx) :
    e ∈ ((cfg0.win 5).blk t).view.set ↔ 2048 * ci t ≤ (e 0).val ∧ (e 0).val < 2048 * ci t + 2048
      ∧ 1024 * cj t ≤ (e 1).val ∧ (e 1).val < 1024 * cj t + min 1024 (11008 - 1024 * cj t) := by
  obtain ⟨i0, i1⟩ := idx5 t
  obtain ⟨x0, x1⟩ := xs5 t
  show e ∈ ((View.whole main_v0).slice (win0_5.rect t)).set ↔
    2048 * (grid0.coords t 0).val ≤ (e 0).val ∧ (e 0).val < 2048 * (grid0.coords t 0).val + 2048
      ∧ 1024 * (grid0.coords t 1).val ≤ (e 1).val ∧ (e 1).val < 1024 * (grid0.coords t 1).val + min 1024 (11008 - 1024 * (grid0.coords t 1).val)
  rw [View.set_slice_whole, Rect.mem_set_unit]
  constructor
  · intro h
    have b0 : win0_5.index t 0 * 2048 ≤ (e 0).val ∧ (e 0).val < win0_5.index t 0 * 2048 + win0_5.xsize (grid0.coords t) 0 := h 0
    have b1 : win0_5.index t 1 * 1024 ≤ (e 1).val ∧ (e 1).val < win0_5.index t 1 * 1024 + win0_5.xsize (grid0.coords t) 1 := h 1
    rw [i0, x0] at b0
    rw [i1, x1] at b1
    omega
  · intro h a
    match a with
    | ⟨0, _⟩ =>
      show win0_5.index t 0 * 2048 ≤ (e 0).val ∧ (e 0).val < win0_5.index t 0 * 2048 + win0_5.xsize (grid0.coords t) 0
      rw [i0, x0]; omega
    | ⟨1, _⟩ =>
      show win0_5.index t 1 * 1024 ≤ (e 1).val ∧ (e 1).val < win0_5.index t 1 * 1024 + win0_5.xsize (grid0.coords t) 1
      rw [i1, x1]; omega

/-- Every entry of the result lies in the block of some point that writes its block back: the entry at row r and
    channel o lies in the block of the point with i = r / 2048, j = o / 1024 and k = 15, which is point
    176·i + 16·j + 15. -/
theorem cover5 (c : Dev nD) (e : S4096x11008.Idx) : ∃ t : Fin cfg0.N, (cfg0.win 5).flush t = true ∧ e ∈ ((cfg0.win 5).blk t).view.set := by
  have hr : (e 0).val < 4096 := (e 0).isLt
  have ho : (e 1).val < 11008 := (e 1).isLt
  obtain ⟨T, hT⟩ : ∃ T : Nat, T = (e 0).val / 2048 * 176 + (e 1).val / 1024 * 16 + 15 := ⟨_, rfl⟩
  have hN : T < cfg0.N := by show T < grid0.N; rw [Gen.N_0]; omega
  have a := coords_closed ⟨T, hN⟩
  have a0 : (grid0.coords ⟨T, hN⟩ 0).val = T / 176 := a.1
  have a1 : (grid0.coords ⟨T, hN⟩ 1).val = T / 16 % 11 := a.2.1
  refine ⟨⟨T, hN⟩, ?_, ?_⟩
  · rw [Gen.flush0_5]; show T % 16 = 15; omega
  · rw [mem_blk5]
    show 2048 * (grid0.coords ⟨T, hN⟩ 0).val ≤ (e 0).val ∧ (e 0).val < 2048 * (grid0.coords ⟨T, hN⟩ 0).val + 2048
      ∧ 1024 * (grid0.coords ⟨T, hN⟩ 1).val ≤ (e 1).val ∧ (e 1).val < 1024 * (grid0.coords ⟨T, hN⟩ 1).val + min 1024 (11008 - 1024 * (grid0.coords ⟨T, hN⟩ 1).val)
    rw [a0, a1]
    omega

end Cert.KernelIdeal.Hand

end
-- ==== Proof.Spec.lean ====
/-
  The function both programs compute, and the reduction it is accumulated by.
  With x an array of 4096 rows of 4096 reals, the dequantized weight w(o,i) = (int(o,i) − zero(o)) · scale(o)
  over 11008 rows, and a bias b(o): the result at (r,o) is the inner product of row r of x with row o of w, plus
  b(o).  The kernel reaches that inner product in sixteen steps of 256 positions each, adding one step's partial
  inner product to a running sum; regrouping a finite sum of extended reals into consecutive runs uses only that
  addition is commutative and associative there, so nothing here asks the entries to be finite.
  Entries are read through accessors indexed by natural numbers that return 0 outside the array, so that the
  steps are sums over plain ranges.
-/
import proofs.«115302_j58660663329081_1_alg».proof.KernelIdeal
import Idealize.ShloMosaic.PureOps.Ideal
import Idealize.ShloMosaic.Lib.ValueIdx
import Mathlib.Algebra.BigOperators.Intervals
import Mathlib.Algebra.BigOperators.Fin

noncomputable section

namespace Cert.QLin

open Idealize.ShloMosaic Cert.KernelIdeal
open ValueIdx (ix1 ix2)

/-- x at row r, position i (0 outside the array). -/
def xN (x : Vec Ideal S4096x4096 .f32) (r i : ℕ) : EReal :=
  if h : r < 4096 ∧ i < 4096 then x (ix2 ⟨r, h.1⟩ ⟨i, h.2⟩) else 0

/-- The dequantized weight at output channel o, position i (0 outside the array). -/
def wN (wq : Vec Ideal S11008x4096 .i32) (zr sc : Vec Ideal S11008 .f32) (o i : ℕ) : EReal :=
  if h : o < 11008 ∧ i < 4096 then
    (FloatOps.sitofp (F := Ideal) .f32 (wq (ix2 ⟨o, h.1⟩ ⟨i, h.2⟩)) - zr (ix1 ⟨o, h.1⟩)) * sc (ix1 ⟨o, h.1⟩)
  else 0

/-- The bias at output channel o (0 outside the array). -/
def bN (bs : Vec Ideal S11008 .f32) (o : ℕ) : EReal := if h : o < 11008 then bs (ix1 ⟨o, h⟩) else 0

section
variable (x : Vec Ideal S4096x4096 .f32) (wq : Vec Ideal S11008x4096 .i32) (sc zr bs : Vec Ideal S11008 .f32)

/-- Step k's partial inner product of row r of x with row o of w: positions 256k … 256k+255. -/
def blkSum (r o k : ℕ) : EReal := ∑ c ∈ Finset.range 256, xN x r (256 * k + c) * wN wq zr sc o (256 * k + c)

/-- The running sum after steps 0 … k. -/
def accN (r o k : ℕ) : EReal := ∑ k' ∈ Finset.range (k + 1), blkSum x wq sc zr r o k'

/-- The whole result: the full inner product plus the bias. -/
def G : Vec Ideal S4096x11008 .f32 := fun j =>
  (∑ i ∈ Finset.range 4096, xN x (j 0).val i * wN wq zr sc (j 1).val i) + bN bs (j 1).val

/-- Regrouping: n consecutive runs of 256 terms make up the first 256·n terms.  By induction on n: the first
n+1 runs are the first n runs followed by one more run, and the first 256·n + 256 terms split the same way. -/
private theorem sum_runs (f : ℕ → EReal) (n : ℕ) :
    ∑ k' ∈ Finset.range n, ∑ c ∈ Finset.range 256, f (256 * k' + c) = ∑ i ∈ Finset.range (256 * n), f i := by
  induction n with
  | zero => simp
  | succ n ih => rw [Finset.sum_range_succ, ih, Nat.mul_succ, Finset.sum_range_add]

/-- The first step, added to a zeroed accumulator, is the running sum after step 0. -/
theorem acc_zero (r o : ℕ) : (0 : EReal) + blkSum x wq sc zr r o 0 = accN x wq sc zr r o 0 := by
  simp only [accN, zero_add, Finset.sum_range_one]

/-- Each later step extends the running sum by one step. -/
theorem acc_succ (r o k : ℕ) : accN x wq sc zr r o k + blkSum x wq sc zr r o (k + 1) = accN x wq sc zr r o (k + 1) := by
  unfold accN
  exact (Finset.sum_range_succ _ (k + 1)).symm

/-- After the sixteenth step the running sum is the full inner product over the 4096 positions. -/
theorem acc_last (r o : ℕ) : accN x wq sc zr r o 15 = ∑ i ∈ Finset.range 4096, xN x r i * wN wq zr sc o i := by
  unfold accN blkSum
  exact sum_runs (fun i => xN x r i * wN wq zr sc o i) 16

/-- So the result entry is the last running sum plus the bias. -/
theorem G_apply (j : S4096x11008.Idx) : G x wq sc zr bs j = accN x wq sc zr (j 0).val (j 1).val 15 + bN bs (j 1).val := by
  unfold G
  rw [acc_last]

end

end Cert.QLin

end
-- ==== Proof.StepI.lean ====
/-
  One reduction step at the ideal instance, as arithmetic.  At grid point (i, j, k) the body finds x's block,
  and the weight, scale, zero and bias blocks filled into buffers whose entries past the array's end are
  unknown.  For an accumulator entry (p, q) whose output channel 1024·j + q lies inside the array, the step's
  inner product reads only entries inside the arrays, and equals the specification's partial inner product of
  row 2048·i + p with channel 1024·j + q over positions 256·k … 256·k + 255.  Hence: after the step at k = 0
  (over a zeroed accumulator) and after each later step, the accumulator agrees with the running sum on those
  entries; and at k = 15 the stored output, on the part of the block inside the array, is the specification.
-/
import proofs.«115302_j58660663329081_1_alg».proof.Proof.Gen.KernelIdeal.Frame
import proofs.«115302_j58660663329081_1_alg».proof.Proof.Gen.KernelIdeal.Skeleton
import proofs.«115302_j58660663329081_1_alg».proof.Proof.PayI
import proofs.«115302_j58660663329081_1_alg».proof.Proof.BlocksI
import proofs.«115302_j58660663329081_1_alg».proof.Proof.Spec
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

open ValueIdx (ix1 ix2)

variable (m : (ℓ : Loc nD τ sig) → Buf (Elt Ideal) ℓ)

/-- The five argument arrays on core c, as the region finds them, and the specification of them. -/
abbrev xArr (c : Dev nD) : Vec Ideal S4096x4096 .f32 := V m c main_arg0
abbrev wqArr (c : Dev nD) : Vec Ideal S11008x4096 .i32 := V m c main_arg1
abbrev scArr (c : Dev nD) : Vec Ideal S11008 .f32 := V m c main_arg2
abbrev zrArr (c : Dev nD) : Vec Ideal S11008 .f32 := V m c main_arg3
abbrev bsArr (c : Dev nD) : Vec Ideal S11008 .f32 := V m c main_arg4
abbrev Gc (c : Dev nD) : Vec Ideal S4096x11008 .f32 :=
  Cert.QLin.G (xArr m c) (wqArr m c) (scArr m c) (zrArr m c) (bsArr m c)

/-- What the body finds in the five input buffers at point t: x's block; the others filled over unknown `d`. -/
abbrev X0 (c : Dev nD) (t : Fin cfg0.N) : Vec Ideal S2048x256 .f32 := iblk m c 0 t
abbrev X1 (c : Dev nD) (t : Fin cfg0.N) (d : S1024x256.Idx → Elt Ideal .i32) : Vec Ideal S1024x256 .i32 := win0_1.fill (grid0.coords t) d (iblk m c 1 t)
abbrev X2 (c : Dev nD) (t : Fin cfg0.N) (d : S1024.Idx → Elt Ideal .f32) : Vec Ideal S1024 .f32 := win0_2.fill (grid0.coords t) d (iblk m c 2 t)
abbrev X3 (c : Dev nD) (t : Fin cfg0.N) (d : S1024.Idx → Elt Ideal .f32) : Vec Ideal S1024 .f32 := win0_3.fill (grid0.coords t) d (iblk m c 3 t)
abbrev X4 (c : Dev nD) (t : Fin cfg0.N) (d : S1024.Idx → Elt Ideal .f32) : Vec Ideal S1024 .f32 := win0_4.fill (grid0.coords t) d (iblk m c 4 t)

/-- The accumulator agrees with the running sum after point t's step, on the entries whose channel is inside the array. -/
def AccOK (c : Dev nD) (t : Fin cfg0.N) (S : Vec Ideal S2048x1024 .f32) : Prop :=
  ∀ (p : Fin 2048) (q : Fin 1024), 1024 * cj t + q.val < 11008 →
    S (ix2 p q) = Cert.QLin.accN (xArr m c) (wqArr m c) (scArr m c) (zrArr m c) (2048 * ci t + p.val) (1024 * cj t + q.val) (ck t)

/-- The step's inner product at an entry whose channel is inside the array is the specification's partial inner product. -/
theorem blk_eq (c : Dev nD) (t : Fin cfg0.N) (d1 : S1024x256.Idx → Elt Ideal .i32) (d2 d3 : S1024.Idx → Elt Ideal .f32)
    (p : Fin 2048) (q : Fin 1024) (hq : 1024 * cj t + q.val < 11008) :
    (∑ k : Fin 256, X0 m c t (ix2 p k) * ((FloatOps.sitofp (F := Ideal) .f32 (X1 m c t d1 (ix2 q k)) - X3 m c t d3 (ix1 q)) * X2 m c t d2 (ix1 q)) : EReal)
      = Cert.QLin.blkSum (xArr m c) (wqArr m c) (scArr m c) (zrArr m c) (2048 * ci t + p.val) (1024 * cj t + q.val) (ck t) := by
  have hi := ci_lt t
  have hkk := ck_lt t
  have hr : 2048 * ci t + p.val < 4096 := by have := p.isLt; omega
  unfold Cert.QLin.blkSum
  rw [Finset.sum_range]
  refine Finset.sum_congr rfl fun k _ => ?_
  have hc : 256 * ck t + k.val < 4096 := by have := k.isLt; omega
  -- each factor of the step's term is an entry of its array: row 2048·i + p, channel 1024·j + q, position 256·k + k'
  have e0 : X0 m c t (ix2 p k) = xArr m c (ix2 ⟨2048 * ci t + p.val, hr⟩ ⟨256 * ck t + k.val, hc⟩) :=
    iblk0_apply m c t (ix2 p k) (ix2 ⟨2048 * ci t + p.val, hr⟩ ⟨256 * ck t + k.val, hc⟩) rfl rfl
  have e1 : X1 m c t d1 (ix2 q k) = wqArr m c (ix2 ⟨1024 * cj t + q.val, hq⟩ ⟨256 * ck t + k.val, hc⟩) :=
    fill1_apply m c t d1 (ix2 q k) (ix2 ⟨1024 * cj t + q.val, hq⟩ ⟨256 * ck t + k.val, hc⟩) rfl rfl
  have e3 : X3 m c t d3 (ix1 q) = zrArr m c (ix1 ⟨1024 * cj t + q.val, hq⟩) :=
    fill3_apply m c t d3 (ix1 q) (ix1 ⟨1024 * cj t + q.val, hq⟩) rfl
  have e2 : X2 m c t d2 (ix1 q) = scArr m c (ix1 ⟨1024 * cj t + q.val, hq⟩) :=
    fill2_apply m c t d2 (ix1 q) (ix1 ⟨1024 * cj t + q.val, hq⟩) rfl
  rw [e0, e1, e3, e2]
  -- and the specification's term, inside the arrays, is the same product
  unfold Cert.QLin.xN Cert.QLin.wN
  rw [dif_pos ⟨hr, hc⟩, dif_pos ⟨hq, hc⟩]

/-- After the step at a point with k = 0, over a zeroed accumulator. -/
theorem step_first (c : Dev nD) (t : Fin cfg0.N) (hk : ck t = 0) (d1 : S1024x256.Idx → Elt Ideal .i32) (d2 d3 : S1024.Idx → Elt Ideal .f32) :
    AccOK m c t (k0_pay2 (F := Ideal) (X0 m c t) (X1 m c t d1) (X3 m c t d3) (X2 m c t d2) (k0_pay1 (F := Ideal))) := by
  intro p q hq
  rw [pay2_apply, pay1_apply, blk_eq m c t d1 d2 d3 p q hq, hk]
  exact Cert.QLin.acc_zero (xArr m c) (wqArr m c) (scArr m c) (zrArr m c) _ _

/-- After the step at a point with k ≠ 0, from the accumulator the point before left. -/
theorem step_succ (c : Dev nD) (t : Fin cfg0.N) (hk : ck t ≠ 0) (hlt : t.val - 1 < cfg0.N) (S : Vec Ideal S2048x1024 .f32)
    (hS : AccOK m c ⟨t.val - 1, hlt⟩ S) (d1 : S1024x256.Idx → Elt Ideal .i32) (d2 d3 : S1024.Idx → Elt Ideal .f32) :
    AccOK m c t (k0_pay2 (F := Ideal) (X0 m c t) (X1 m c t d1) (X3 m c t d3) (X2 m c t d2) S) := by
  obtain ⟨hlt', _, hci, hcj, hck⟩ := coords_prev t hk
  intro p q hq
  have hq' : 1024 * cj ⟨t.val - 1, hlt⟩ + q.val < 11008 := by rw [hcj]; exact hq
  rw [pay2_apply, hS p q hq', blk_eq m c t d1 d2 d3 p q hq, hci, hcj, ← hck]
  exact Cert.QLin.acc_succ (xArr m c) (wqArr m c) (scArr m c) (zrArr m c) _ _ _

/-- At a point with k = 15, the stored output on the part of its block inside the array is the specification there. -/
theorem out_last (c : Dev nD) (t : Fin cfg0.N) (hk : ck t = 15) (A : Vec Ideal S2048x1024 .f32) (hA : AccOK m c t A)
    (d4 : S1024.Idx → Elt Ideal .f32) :
    win0_5.cut (grid0.coords t) (k0_pay3 (F := Ideal) A (X4 m c t d4)) = (win0_5.blk t).view.read (Elt Ideal) (Gc m c) := by
  funext y
  show k0_pay3 (F := Ideal) A (X4 m c t d4) (win0_5.xinj (grid0.coords t) y) = _
  have hin := xinj5_inside t y
  have hi := ci_lt t
  -- the entry of the block, by coordinates: row p, column q
  generalize hx : win0_5.xinj (grid0.coords t) y = j at hin
  obtain ⟨p, q, rfl⟩ : ∃ (p : Fin 2048) (q : Fin 1024), j = ix2 p q := ⟨_, _, ValueIdx.eq_ix2 j⟩
  have hq : 1024 * cj t + q.val < 11008 := hin
  have hr : 2048 * ci t + p.val < 4096 := by have := p.isLt; omega
  -- the stored entry is the running sum after the last step plus the bias at channel 1024·j + q
  have e4 : X4 m c t d4 (ix1 q) = bsArr m c (ix1 ⟨1024 * cj t + q.val, hq⟩) :=
    fill4_apply m c t d4 (ix1 q) (ix1 ⟨1024 * cj t + q.val, hq⟩) rfl
  rw [pay3_apply, hA p q hq, e4]
  -- the specification read through the block is its entry at row 2048·i + p, channel 1024·j + q
  have er : (win0_5.blk t).view.read (Elt Ideal) (Gc m c) y
      = Gc m c (ix2 ⟨2048 * ci t + p.val, hr⟩ ⟨1024 * cj t + q.val, hq⟩) :=
    read5_apply c t (Gc m c) y (ix2 ⟨2048 * ci t + p.val, hr⟩ ⟨1024 * cj t + q.val, hq⟩)
      (by rw [hx] <;> rfl) (by rw [hx] <;> rfl)
  rw [er]
  show _ = Cert.QLin.G (xArr m c) (wqArr m c) (scArr m c) (zrArr m c) (bsArr m c) _
  rw [Cert.QLin.G_apply, hk]
  unfold Cert.QLin.bN
  rw [dif_pos hq] <;> rfl

end Cert.KernelIdeal.Hand

end
-- ==== Proof.DatI.lean ====
/-
  The idealized kernel's run, with its values.  The proof data name what each staging buffer holds after the
  body at each grid point on the part of the block inside its array: the five inputs hold their blocks (the
  body only reads them), and the output, at the last reduction step of each (i, j), holds the specification's
  block.  The accumulator is carried from point to point in a scratch buffer: between points it agrees with the
  specification's running sum on the entries whose output channel lies inside the array (elsewhere it holds
  sums of unknown words, which never reach the result).  From the run: the result array ends at the
  specification, the arguments unchanged.
-/
import proofs.«115302_j58660663329081_1_alg».proof.Proof.Gen.KernelIdeal.Frame
import proofs.«115302_j58660663329081_1_alg».proof.Proof.Gen.KernelIdeal.Skeleton
import proofs.«115302_j58660663329081_1_alg».proof.Proof.BodyI
import proofs.«115302_j58660663329081_1_alg».proof.Proof.StepI
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

open ValueIdx (ix1 ix2)

local notation "𝕄" => MT nD τ sig Unit (Elt Ideal) ℕ (UR sig nD τ) ℕ

variable (m : (ℓ : Loc nD τ sig) → Buf (Elt Ideal) ℓ) (ρ : Dev nD → PrngReg)

/-- The accumulator, as a whole memref. -/
abbrev scM : Memref sig .tc .vmem S2048x1024 .f32 := Memref.whole cc0_scratch0

/-- Before point n (after point n − 1, when there is one) the accumulator agrees with the running sum of that point. -/
def AccInv (c : Dev nD) (n : Fin (cfg0.N + 1)) (S : Vec Ideal S2048x1024 .f32) : Prop :=
  ∀ h : 0 < n.val, AccOK m c ⟨n.val - 1, by have := n.isLt; omega⟩ S

/-- The proof data on core c. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => win0_5.fill (grid0.coords t) (fun _ => Classical.arbitrary _) ((win0_5.blk t).view.read (Elt Ideal) (Gc m c))
  Φ n := iprop((∃ S, ⌜AccInv m c n S⌝ ∗ owns (c : Thread nD τ) scM fullShare S) ∗ (∃ r, prngReg c r))
  q _ := fullShare
  owed _ := 0

theorem dats_A (c : Dev nD) (w : Fin cfg0.W) : (dats m 0 c).A w = V m c (Pipeline.arrRef spec0 w) := rfl

/-! ## What the body finds in the input buffers -/

theorem before0 (c : Dev nD) (t : Fin cfg0.N) (d) : (dats m 0 c).before 0 t d = X0 m c t :=
  before0_0_of m (dats m 0 c) rfl (fun _ => rfl) t d

theorem before1 (c : Dev nD) (t : Fin cfg0.N) (d) : (dats m 0 c).before 1 t d = X1 m c t d := by
  rw [(dats m 0 c).before_in_eq_fetched 1 rfl (fun _ => rfl) clip_congr1 (fun t => by
    show win0_1.cut (grid0.coords t) (win0_1.fill (grid0.coords t) _ (iblk m c 1 t)) = _
    rw [Window.cut_fill]; rfl) t d]
  rfl

theorem before2 (c : Dev nD) (t : Fin cfg0.N) (d) : (dats m 0 c).before 2 t d = X2 m c t d := by
  rw [(dats m 0 c).before_in_eq_fetched 2 rfl (fun _ => rfl) clip_congr2 (fun t => by
    show win0_2.cut (grid0.coords t) (win0_2.fill (grid0.coords t) _ (iblk m c 2 t)) = _
    rw [Window.cut_fill]; rfl) t d]
  rfl

theorem before3 (c : Dev nD) (t : Fin cfg0.N) (d) : (dats m 0 c).before 3 t d = X3 m c t d := by
  rw [(dats m 0 c).before_in_eq_fetched 3 rfl (fun _ => rfl) clip_congr3 (fun t => by
    show win0_3.cut (grid0.coords t) (win0_3.fill (grid0.coords t) _ (iblk m c 3 t)) = _
    rw [Window.cut_fill]; rfl) t d]
  rfl

theorem before4 (c : Dev nD) (t : Fin cfg0.N) (d) : (dats m 0 c).before 4 t d = X4 m c t d := by
  rw [(dats m 0 c).before_in_eq_fetched 4 rfl (fun _ => rfl) clip_congr4 (fun t => by
    show win0_4.cut (grid0.coords t) (win0_4.fill (grid0.coords t) _ (iblk m c 4 t)) = _
    rw [Window.cut_fill]; rfl) t d]
  rfl

/-! ## The invariant at the region's ends -/

/-- Before the first point nothing is asked of the accumulator. -/
theorem phi_in (c : Dev nD) : Pipeline.ΦA spec0 c ⊢ (dats m 0 c).Φ 0 := by
  unfold Pipeline.ΦA; rw [scopedRest0_eq]
  show _ ⊢ iprop((∃ S, ⌜AccInv m c 0 S⌝ ∗ owns (c : Thread nD τ) (Memref.whole cc0_scratch0) fullShare S) ∗ (∃ r, prngReg c r))
  simp only [owns_whole]
  iintro ⟨⟨%f, Hf⟩, Hr⟩
  isplitl [Hf]
  · iexists f; isplitr
    · ipureintro; intro h; simp at h
    · iexact Hf
  · iexact Hr

/-- After the last point the accumulator is forgotten. -/
theorem phi_out (c : Dev nD) : (dats m 0 c).Φ (Fin.last cfg0.N) ⊢ Pipeline.ΦA spec0 c := by
  unfold Pipeline.ΦA; rw [scopedRest0_eq]
  show iprop((∃ S, ⌜AccInv m c (Fin.last cfg0.N) S⌝ ∗ owns (c : Thread nD τ) (Memref.whole cc0_scratch0) fullShare S) ∗ (∃ r, prngReg c r)) ⊢ _
  simp only [owns_whole]
  iintro ⟨⟨%S, -, HS⟩, Hr⟩
  isplitl [HS]
  · iexists S; iexact HS
  · iexact Hr

/-! ## The body obligation -/

theorem body_obligation (c : Dev nD) : BodyObligationLoose (dats m 0 c) (defs₀ (F := Ideal)) Variants.none () Set.univ := by
  intro t
  rw [bigSep_W0, bigSep_W0]
  simp only
  simp only [before0, before1, before2, before3, before4]
  rw [show (dats m 0 c).Φ t.castSucc = iprop((∃ S, ⌜AccInv m c t.castSucc S⌝ ∗ owns (c : Thread nD τ) scM fullShare S) ∗ (∃ r, prngReg c r)) from rfl,
    show (dats m 0 c).Φ t.succ = iprop((∃ S, ⌜AccInv m c t.succ S⌝ ∗ owns (c : Thread nD τ) scM fullShare S) ∗ (∃ r, prngReg c r)) from rfl,
    show (dats m 0 c).owesAt () t.succ = (dats m 0 c).owesAt () t.castSucc from rfl]
  show _ ⊢ wp frame (wpE (defs₀ (F := Ideal)) Variants.none c none) Set.univ (bodyAt0 (F := Ideal) t) _
  -- on the part of an input block inside its array, what its buffer holds after the body is the block itself
  have hc1 : (win0 1).cut (grid0.coords t) ((dats m 0 c).after 1 t) = iblk m c 1 t := by
    show win0_1.cut (grid0.coords t) (win0_1.fill (grid0.coords t) _ (iblk m c 1 t)) = _
    rw [Window.cut_fill]
  have hc2 : (win0 2).cut (grid0.coords t) ((dats m 0 c).after 2 t) = iblk m c 2 t := by
    show win0_2.cut (grid0.coords t) (win0_2.fill (grid0.coords t) _ (iblk m c 2 t)) = _
    rw [Window.cut_fill]
  have hc3 : (win0 3).cut (grid0.coords t) ((dats m 0 c).after 3 t) = iblk m c 3 t := by
    show win0_3.cut (grid0.coords t) (win0_3.fill (grid0.coords t) _ (iblk m c 3 t)) = _
    rw [Window.cut_fill]
  have hc4 : (win0 4).cut (grid0.coords t) ((dats m 0 c).after 4 t) = iblk m c 4 t := by
    show win0_4.cut (grid0.coords t) (win0_4.fill (grid0.coords t) _ (iblk m c 4 t)) = _
    rw [Window.cut_fill]
  by_cases hl : condLast (grid0.coords t)
  · by_cases hf : condFirst (grid0.coords t)
    -- the reduction coordinate is not both zero and fifteen
    · have h0 : ck t = 0 := (condFirst_iff t).mp hf
      have h15 : ck t = 15 := (condLast_iff t).mp hl
      omega
    -- a last step: the output block is live; the accumulator continues the running sum of the point before
    have hidle : idle0 5 (grid0.coords t) = false := idle5_of_last t hl
    have hc5 : (win0 5).cut (grid0.coords t) ((dats m 0 c).after 5 t) = (win0_5.blk t).view.read (Elt Ideal) (Gc m c) := by
      show win0_5.cut (grid0.coords t) (win0_5.fill (grid0.coords t) _ ((win0_5.blk t).view.read (Elt Ideal) (Gc m c))) = _
      rw [Window.cut_fill]
    simp only [hidle, hc1, hc2, hc3, hc4, hc5]
    have hk : ck t ≠ 0 := fun h => hf ((condFirst_iff t).mpr h)
    obtain ⟨hlt, ht, -⟩ := coords_prev t hk
    iintro ⟨⟨⟨%S, %hS, HS⟩, Hr⟩, Ho, ⟨%d0, H0⟩, ⟨%d1, H1⟩, ⟨%d2, H2⟩, ⟨%d3, H3⟩, ⟨%d4, H4⟩, ⟨%d5, H5⟩⟩
    have key : AccOK m c t (accStep (X0 m c t) (X1 m c t d1) (X2 m c t d2) (X3 m c t d3) S) := step_succ m c t hk hlt S (hS (Nat.pos_of_ne_zero ht)) d1 d2 d3
    have hstep : AccInv m c t.succ (accStep (X0 m c t) (X1 m c t d1) (X2 m c t d2) (X3 m c t d3) S) := by
      -- the point after t looks back at t itself
      intro _
      have gen : ∀ t' : Fin cfg0.N, t' = t → AccOK m c t' (accStep (X0 m c t) (X1 m c t d1) (X2 m c t d2) (X3 m c t d3) S) := by
        rintro _ rfl; exact key
      exact gen _ (Fin.ext (by show t.val + 1 - 1 = t.val; omega))
    -- the stored sum agrees with the specification's block on the part inside the array, so the block named for
    -- the output, filled out with the stored sum, is the stored sum
    have h5 : (win0 5).fill (grid0.coords t) (k0_pay3 (F := Ideal) (accStep (X0 m c t) (X1 m c t d1) (X2 m c t d2) (X3 m c t d3) S) (X4 m c t d4)) ((win0_5.blk t).view.read (Elt Ideal) (Gc m c))
        = k0_pay3 (F := Ideal) (accStep (X0 m c t) (X1 m c t d1) (X2 m c t d2) (X3 m c t d3) S) (X4 m c t d4) := by
      rw [← out_last m c t ((condLast_iff t).mp hl) (accStep (X0 m c t) (X1 m c t d1) (X2 m c t d2) (X3 m c t d3) S) key d4]
      exact Window.fill_cut win0_5 (grid0.coords t) _
    iapply (body_last (F := Ideal) c (grid0.coords t)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        scM (Memref.isWhole_whole _)
        (X0 m c t) (X1 m c t d1) (X2 m c t d2) (X3 m c t d3) (X4 m c t d4) ((dats m 0 c).before 5 t d5) S hf hl Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr]
    · isplitl [HS]
      · iexists (accStep (X0 m c t) (X1 m c t d1) (X2 m c t d2) (X3 m c t d3) S); isplitr
        · ipureintro; exact hstep
        · iexact HS
      · iexact Hr
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    iexists (k0_pay3 (F := Ideal) (accStep (X0 m c t) (X1 m c t d1) (X2 m c t d2) (X3 m c t d3) S) (X4 m c t d4))
    rw [h5]; iexact H5
  by_cases hf : condFirst (grid0.coords t)
  -- a first step: the running sum restarts from zeros; the output block is idle and handed back as found
  · have hidle : idle0 5 (grid0.coords t) = true := idle5_of_not_last t hl
    have hflush : (win0 5).flush t = false := Bool.eq_false_iff.mpr fun h => hl ((flush5_iff t).mp h)
    simp only [hidle, hflush, hc1, hc2, hc3, hc4]
    iintro ⟨⟨⟨%S, %hS, HS⟩, Hr⟩, Ho, ⟨%d0, H0⟩, ⟨%d1, H1⟩, ⟨%d2, H2⟩, ⟨%d3, H3⟩, ⟨%d4, H4⟩, ⟨%d5, H5⟩⟩
    have key : AccOK m c t (accStep (X0 m c t) (X1 m c t d1) (X2 m c t d2) (X3 m c t d3) (k0_pay1 (F := Ideal))) := step_first m c t ((condFirst_iff t).mp hf) d1 d2 d3
    have hstep : AccInv m c t.succ (accStep (X0 m c t) (X1 m c t d1) (X2 m c t d2) (X3 m c t d3) (k0_pay1 (F := Ideal))) := by
      -- the point after t looks back at t itself
      intro _
      have gen : ∀ t' : Fin cfg0.N, t' = t → AccOK m c t' (accStep (X0 m c t) (X1 m c t d1) (X2 m c t d2) (X3 m c t d3) (k0_pay1 (F := Ideal))) := by
        rintro _ rfl; exact key
      exact gen _ (Fin.ext (by show t.val + 1 - 1 = t.val; omega))
    iapply (body_first (F := Ideal) c (grid0.coords t)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        scM (Memref.isWhole_whole _)
        (X0 m c t) (X1 m c t d1) (X2 m c t d2) (X3 m c t d3) (X4 m c t d4) ((dats m 0 c).before 5 t d5) S hf hl Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr]
    · isplitl [HS]
      · iexists (accStep (X0 m c t) (X1 m c t d1) (X2 m c t d2) (X3 m c t d3) (k0_pay1 (F := Ideal))); isplitr
        · ipureintro; exact hstep
        · iexact HS
      · iexact Hr
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    iexists d5; iexact H5
  -- a middle step: the accumulator continues the running sum of the point before; the output block is idle
  have hidle : idle0 5 (grid0.coords t) = true := idle5_of_not_last t hl
  have hflush : (win0 5).flush t = false := Bool.eq_false_iff.mpr fun h => hl ((flush5_iff t).mp h)
  simp only [hidle, hflush, hc1, hc2, hc3, hc4]
  have hk : ck t ≠ 0 := fun h => hf ((condFirst_iff t).mpr h)
  obtain ⟨hlt, ht, -⟩ := coords_prev t hk
  iintro ⟨⟨⟨%S, %hS, HS⟩, Hr⟩, Ho, ⟨%d0, H0⟩, ⟨%d1, H1⟩, ⟨%d2, H2⟩, ⟨%d3, H3⟩, ⟨%d4, H4⟩, ⟨%d5, H5⟩⟩
  have key : AccOK m c t (accStep (X0 m c t) (X1 m c t d1) (X2 m c t d2) (X3 m c t d3) S) := step_succ m c t hk hlt S (hS (Nat.pos_of_ne_zero ht)) d1 d2 d3
  have hstep : AccInv m c t.succ (accStep (X0 m c t) (X1 m c t d1) (X2 m c t d2) (X3 m c t d3) S) := by
    -- the point after t looks back at t itself
    intro _
    have gen : ∀ t' : Fin cfg0.N, t' = t → AccOK m c t' (accStep (X0 m c t) (X1 m c t d1) (X2 m c t d2) (X3 m c t d3) S) := by
      rintro _ rfl; exact key
    exact gen _ (Fin.ext (by show t.val + 1 - 1 = t.val; omega))
  iapply (body_mid (F := Ideal) c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      scM (Memref.isWhole_whole _)
      (X0 m c t) (X1 m c t d1) (X2 m c t d2) (X3 m c t d3) (X4 m c t d4) ((dats m 0 c).before 5 t d5) S hf hl Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hr]
  · isplitl [HS]
    · iexists (accStep (X0 m c t) (X1 m c t d1) (X2 m c t d2) (X3 m c t d3) S); isplitr
      · ipureintro; exact hstep
      · iexact HS
    · iexact Hr
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists d5; iexact H5

/-! ## The run -/

theorem run_main : θ_run defs (onTc (τ := τ) (main (F := Ideal))) (s₀ m ρ) (Pipeline.FramePost cfgs (dats m) 0 (V m)) :=
  Pipeline.θ_run_frame_track cfgs (dats m) 0 launch0 defs₀ Variants.none m ρ main
    (body_obligation m) (fun c => (dats m 0 c).share_full fun _ => rfl) (fun _ _ => rfl)
    (V m) (hmain m Variants.none) (fun _ _ => rfl) (phi_in m) (phi_out m)

/-- What the result's block holds at a point that writes it back: the specification read through the block. -/
theorem flushed5 (c : Dev nD) (t : Fin cfg0.N) : (dats m 0 c).flushed 5 t = ((cfg0.win 5).blk t).view.read (Elt Ideal) (Gc m c) := by
  show win0_5.cut (grid0.coords t) (win0_5.fill (grid0.coords t) _ ((win0_5.blk t).view.read (Elt Ideal) (Gc m c))) = _
  rw [Window.cut_fill]

/-- The result array after the run is the specification. -/
theorem final5 (c : Dev nD) : (dats m 0 c).arrAt 5 cfg0.N = Gc m c :=
  (dats m 0 c).arrAt_eq_of_cover 5 (Gc m c) (fun t _ => flushed5 m c t) (cover5 c)

/-- The idealized kernel's run with its result named: the result array at the specification, the arguments unchanged. -/
theorem run_value : θ_run defs (onTc (τ := τ) (main (F := Ideal))) ⟨m, fun _ => 0, ρ⟩ (fun r => ∀ c : Dev nD,
      r.2.mem ((c.tc : Thread nD τ).loc main_v0) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c),
      ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c))⟩) (run_main m ρ)

end Cert.KernelIdeal.Hand

end
-- ==== Proof.Ref.lean ====
/-
  The reference program at the ideal instance: its result array, read entry by entry, is the inner product of
  a row of x with a row of the dequantized weight, plus the bias — the same whole-array function the kernel's
  result is shown to be.
-/
import proofs.«115302_j58660663329081_1_alg».proof.Proof.Gen.ReferenceIdeal.Run
import proofs.«115302_j58660663329081_1_alg».proof.Proof.Gen.ReferenceIdeal.Read
import proofs.«115302_j58660663329081_1_alg».proof.Proof.Spec

set_option maxRecDepth 16384

noncomputable section

namespace Cert.RefSide

open Idealize.ShloMosaic Idealize.ShloMosaic.TcCoe Idealize.SL.Sem
open Cert.ReferenceIdeal Cert.ReferenceIdeal.Gen
open ValueIdx (ix1 ix2)

/-- The reference's last stage, as a function of the five argument arrays, is the specification: at every entry
    the host contraction over the 4096 positions is the plain sum, each factor the array entry the accessors
    read, and the broadcast bias is the bias at the column. -/
theorem ref_eq_G (x0 : (⟨S4096x4096, .f32⟩ : BufTy).Contents (Elt Ideal)) (x1 : (⟨S11008x4096, .i32⟩ : BufTy).Contents (Elt Ideal))
    (x2 x3 x4 : (⟨S11008, .f32⟩ : BufTy).Contents (Elt Ideal)) :
    Cert.ReferenceIdeal.Read.val_main_v10 (F := Ideal) x0 x1 x2 x3 x4 = Cert.QLin.G x0 x1 x2 x3 x4 := by
  funext i
  have h0 : (i 0).val < 4096 := (i 0).isLt
  have h1 : (i 1).val < 11008 := (i 1).isLt
  rw [Read.val_main_v10_apply, Read.val_main_v7_apply, Read.val_main_v9_apply, Read.val_main_v8_apply,
    Ideal.addf_def]
  unfold Cert.QLin.G
  congr 1
  · -- the contraction over the 4096 positions, term by term
    rw [Finset.sum_range (fun k => Cert.QLin.xN x0 (i 0).val k * Cert.QLin.wN x1 x3 x2 (i 1).val k)]
    refine Finset.sum_congr rfl fun k _ => ?_
    rw [Read.val_main_v6_apply, Read.val_main_v3_apply, Read.val_main_v0_apply, Read.val_main_v2_apply,
      Read.val_main_v1_apply, Read.val_main_v5_apply, Read.val_main_v4_apply, Ideal.mulf_def, Ideal.subf_def]
    unfold Cert.QLin.xN Cert.QLin.wN
    rw [dif_pos (⟨h0, k.isLt⟩ : (i 0).val < 4096 ∧ k.val < 4096),
      dif_pos (⟨h1, k.isLt⟩ : (i 1).val < 11008 ∧ k.val < 4096)]
    -- every index read is the index with the same coordinates
    have eZ : Read.idx_main_v1 (Read.idx_main_v2 (Read.ridx_main_v7 i k)) = ix1 ⟨(i 1).val, h1⟩ :=
      funext fun a => Fin.ext (by match a with | ⟨0, _⟩ => rfl)
    have eS : Read.idx_main_v4 (Read.idx_main_v5 (Read.ridx_main_v7 i k)) = ix1 ⟨(i 1).val, h1⟩ :=
      funext fun a => Fin.ext (by match a with | ⟨0, _⟩ => rfl)
    have eL : Read.lidx_main_v7 i k = ix2 ⟨(i 0).val, h0⟩ ⟨k.val, k.isLt⟩ :=
      funext fun a => Fin.ext (by match a with | ⟨0, _⟩ => rfl | ⟨1, _⟩ => rfl)
    have eR : Read.ridx_main_v7 i k = ix2 ⟨(i 1).val, h1⟩ ⟨k.val, k.isLt⟩ :=
      funext fun a => Fin.ext (by match a with | ⟨0, _⟩ => rfl | ⟨1, _⟩ => rfl)
    rw [eZ, eS, eL, eR]
  · -- the broadcast bias is the bias at the column
    unfold Cert.QLin.bN
    rw [dif_pos h1]
    have eB : Read.idx_main_v8 (Read.idx_main_v9 i) = ix1 ⟨(i 1).val, h1⟩ :=
      funext fun a => Fin.ext (by match a with | ⟨0, _⟩ => rfl)
    rw [eB]

end Cert.RefSide

end
-- ==== Proof.lean ====
/-
  A weight-only quantized linear layer: y = x · Wᵀ + b with W(o,i) = (q(o,i) − zero(o)) · scale(o), x of 4096 rows
  of 4096 entries, 11008 output channels.  The kernel tiles the result into blocks of 2048 rows by 1024 channels
  and reaches each block's inner products in sixteen steps of 256 positions, accumulated in a scratch block and,
  at the last step, stored with the bias added; the blocks of the last 1024 channels run 256 past the arrays' end
  and are cut there.  The reference dequantizes the whole weight and contracts over all 4096 positions at once.

  Over the extended reals both are, entry by entry, the same finite sum: regrouping it into sixteen consecutive
  runs uses only that addition is commutative and associative, so the inputs' finiteness is never called on.
  The entries of the cut blocks past the arrays' end are unknown words; each result entry depends only on one row
  of x and one row of the weight, so no unknown word reaches a channel inside the array.

  The idealized kernel's run carries its values (the running sums in the scratch block, point by point) and ends
  with the result array at the common specification; the reference's generated run is read entry by entry to the
  same specification.  The word-level kernel's frame names no value: at the word level the matrix product is
  not read entry by entry, and the frame does not need it.  The ideal pass rewrote nothing, so the preservation
  claim is empty.
-/
import proofs.«115302_j58660663329081_1_alg».proof.Defs
import proofs.«115302_j58660663329081_1_alg».proof.Proof.Gen.Kernel
import proofs.«115302_j58660663329081_1_alg».proof.Proof.Gen.Kernel.Skeleton
import proofs.«115302_j58660663329081_1_alg».proof.Proof.Gen.Kernel.Launch
import proofs.«115302_j58660663329081_1_alg».proof.Proof.Gen.Kernel.Points
import proofs.«115302_j58660663329081_1_alg».proof.Proof.Gen.Kernel.Frame
import proofs.«115302_j58660663329081_1_alg».proof.Proof.Gen.KernelIdeal
import proofs.«115302_j58660663329081_1_alg».proof.Proof.Gen.KernelIdeal.Skeleton
import proofs.«115302_j58660663329081_1_alg».proof.Proof.Gen.KernelIdeal.Launch
import proofs.«115302_j58660663329081_1_alg».proof.Proof.Gen.KernelIdeal.Points
import proofs.«115302_j58660663329081_1_alg».proof.Proof.Gen.KernelIdeal.Frame
import proofs.«115302_j58660663329081_1_alg».proof.Proof.Gen.ReferenceIdeal
import proofs.«115302_j58660663329081_1_alg».proof.Proof.Gen.ReferenceIdeal.Run
import proofs.«115302_j58660663329081_1_alg».proof.Proof.Gen.ReferenceIdeal.Read
import proofs.«115302_j58660663329081_1_alg».proof.Proof.Gen.Pre_finite_inputs
import proofs.«115302_j58660663329081_1_alg».proof.Proof.FrameB
import proofs.«115302_j58660663329081_1_alg».proof.Proof.DatI
import proofs.«115302_j58660663329081_1_alg».proof.Proof.Ref
import Idealize.ShloMosaic.Adequacy
import Idealize.ShloMosaic.Init

set_option maxRecDepth 16384

noncomputable section

namespace Cert.Proof

open Idealize.ShloMosaic Idealize.SL.Sem

/-- The word-level kernel runs and leaves its arguments as they were. -/
theorem frame_kernel : Cert.frame_Kernel := fun m ρ _ => Cert.Kernel.Hand.frame_run (F := Bits) m ρ

/-- So does the idealized kernel: its run with values, the result dropped. -/
theorem frame_kernelIdeal : Cert.frame_KernelIdeal := fun m ρ _ =>
  (θ_run Cert.KernelIdeal.defs _ _).mono (fun _ h c => (h c).2) (Cert.KernelIdeal.Hand.run_value m ρ)

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at the one
    specification of those arguments. -/
theorem algebraic : Cert.algebraic_KernelIdeal_ReferenceIdeal := by
  intro m ρ m' ρ' _ hagree
  refine ⟨fun c => Cert.KernelIdeal.Hand.Gc m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefSide.ref_eq_G, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
